-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x32x32x32 : Shape := ⟨4, ![32, 32, 32, 32]⟩
abbrev S_ : Shape := ⟨0, ![]⟩

class Facts : Prop where
  bcast_S_S32x32x32x32 : S_.BroadcastsInDim S32x32x32x32 (![] : Fin 0 → Fin S32x32x32x32.rank)
  reducesTo_S32x32x32x32_S_d0_1_2_3 : S32x32x32x32.ReducesTo [0, 1, 2, 3] S_
  h_S_ : 0 < S_.numel

variable [Facts]

def fn {F : FTy → Type} [FloatOps F] (main_arg0 : IVec S32x32x32x32 32) : IVec S_ 1 :=
  let main_c : IVec S_ 32 := constantI S_ 32 0#32
  let main_v0 : IVec S32x32x32x32 32 := broadcastInDim S32x32x32x32 ![] bcast_S_S32x32x32x32 main_c
  let main_v1 : IVec S32x32x32x32 1 := cmpi .sge main_arg0 main_v0
  let main_c_0 : IVec S_ 1 := constantI S_ 1 1#1
  let main_v2 : IVec S_ 1 := (fun x v => Host.reduce IntOp.andi x v reducesTo_S32x32x32x32_S_d0_1_2_3 h_S_) main_v1 main_c_0
  let main_c_1 : IVec S_ 32 := constantI S_ 32 3717#32
  let main_v3 : IVec S32x32x32x32 32 := broadcastInDim S32x32x32x32 ![] bcast_S_S32x32x32x32 main_c_1
  let main_v4 : IVec S32x32x32x32 1 := cmpi .slt main_arg0 main_v3
  let main_c_2 : IVec S_ 1 := constantI S_ 1 1#1
  let main_v5 : IVec S_ 1 := (fun x v => Host.reduce IntOp.andi x v reducesTo_S32x32x32x32_S_d0_1_2_3 h_S_) main_v4 main_c_2
  let main_v6 : IVec S_ 1 := andi main_v2 main_v5
  main_v6
-- ==== Kernel.lean ====
abbrev S32x32x32x32 : Shape := ⟨4, ![32, 32, 32, 32]⟩
abbrev S32x8x4x8x4x8x4 : Shape := ⟨7, ![32, 8, 4, 8, 4, 8, 4]⟩
abbrev S4x4x4x32x8x8x8 : Shape := ⟨7, ![4, 4, 4, 32, 8, 8, 8]⟩
abbrev S64x16384 : Shape := ⟨2, ![64, 16384]⟩
abbrev S16384 : Shape := ⟨1, ![16384]⟩
abbrev S64x4096 : Shape := ⟨2, ![64, 4096]⟩
abbrev S4096 : Shape := ⟨1, ![4096]⟩
abbrev S1x4096 : Shape := ⟨2, ![1, 4096]⟩
abbrev S_ : Shape := ⟨0, ![]⟩

abbrev nBuf : Space → Nat
  | .hbm => 9
  | .vmem => 4
  | .smem => 0
  | _ => 0

abbrev bufTy : (tb : Table) → Fin (tcTables nBuf tb) → BufTy
  | .hbm, ⟨0, _⟩ => ⟨S32x32x32x32, .i32⟩
  | .hbm, ⟨1, _⟩ => ⟨S32x8x4x8x4x8x4, .i32⟩
  | .hbm, ⟨2, _⟩ => ⟨S4x4x4x32x8x8x8, .i32⟩
  | .hbm, ⟨3, _⟩ => ⟨S64x16384, .i32⟩
  | .hbm, ⟨4, _⟩ => ⟨S16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x4096, .i32⟩
  | .local _ .vmem, ⟨1, _⟩ => ⟨S64x4096, .i32⟩
  | .local _ .vmem, ⟨2, _⟩ => ⟨S4096, .f32⟩
  | .local _ .vmem, ⟨3, _⟩ => ⟨S4096, .f32⟩
  | _, _ => ⟨S32x32x32x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S64x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x32x32x32_S32x8x4x8x4x8x4 : S32x32x32x32.ShapeCasts S32x8x4x8x4x8x4
  transposes_S32x8x4x8x4x8x4_S4x4x4x32x8x8x8_2_4_6_0_1_3_5 : S32x8x4x8x4x8x4.Transposes [2, 4, 6, 0, 1, 3, 5] S4x4x4x32x8x8x8
  shapeCasts_S4x4x4x32x8x8x8_S64x16384 : S4x4x4x32x8x8x8.ShapeCasts S64x16384
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  natLt_1_32 : 1 < 32
  bitsLt_bf16_f32 : FTy.bits .bf16 < FTy.bits .f32
  rotates_S64x4096_d0 : S64x4096.Rotates 0 none
  reduces_S64x4096_S4096 : S64x4096.Reduces [0] S4096
  shapeCasts_S4096_S1x4096 : S4096.ShapeCasts S1x4096
  broadcasts_S1x4096_S64x4096 : S1x4096.Broadcasts S64x4096
  inb_S4096_S4096_0 : ∀ a, (![0] : Fin 1 → Nat) a + S4096.size a ≤ S4096.size a
  h_S4096 : 0 < S4096.numel
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x16384.size a
  hwx0_0 : ∀ i : grid0.Coords, EltTy.bits .i32 = 32 ∨ (Rect.block (s := S64x16384) S64x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S16384.size a
  hwx0_1 : ∀ i : grid0.Coords, EltTy.bits .f32 = 32 ∨ (Rect.block (s := S16384) S4096.size (cc0_transform_1 i) (hinb0_1 i)).WholeWords (EltTy.packing .f32)

variable [Facts₀]

abbrev win0_0 : Pipeline.Window sig grid0 :=
  Pipeline.Window.ofSpec (Memref.whole main_v2) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x32x32x32 : Shape := ⟨4, ![32, 32, 32, 32]⟩
abbrev S3 : Shape := ⟨1, ![3]⟩
abbrev S32x8x4x8x4x8x4 : Shape := ⟨7, ![32, 8, 4, 8, 4, 8, 4]⟩
abbrev S32x8x8x8x4x4x4 : Shape := ⟨7, ![32, 8, 8, 8, 4, 4, 4]⟩
abbrev S16384x64 : Shape := ⟨2, ![16384, 64]⟩
abbrev S_ : Shape := ⟨0, ![]⟩
abbrev S16384x3717 : Shape := ⟨2, ![16384, 3717]⟩
abbrev S16384 : Shape := ⟨1, ![16384]⟩
abbrev S16384x1 : Shape := ⟨2, ![16384, 1]⟩
abbrev S16384x64x1 : Shape := ⟨3, ![16384, 64, 1]⟩
abbrev S16384x64x2 : Shape := ⟨3, ![16384, 64, 2]⟩
abbrev S3x1 : Shape := ⟨2, ![3, 1]⟩
abbrev S16384x3 : Shape := ⟨2, ![16384, 3]⟩

abbrev nBuf : Space → Nat
  | .hbm => 61
  | .vmem => 0
  | .smem => 0
  | _ => 0

abbrev bufTy : (tb : Table) → Fin (tcTables nBuf tb) → BufTy
  | .hbm, ⟨0, _⟩ => ⟨S32x32x32x32, .i32⟩
  | .hbm, ⟨1, _⟩ => ⟨S3, .i32⟩
  | .hbm, ⟨2, _⟩ => ⟨S32x8x4x8x4x8x4, .i32⟩
  | .hbm, ⟨3, _⟩ => ⟨S32x8x8x8x4x4x4, .i32⟩
  | .hbm, ⟨4, _⟩ => ⟨S16384x64, .i32⟩
  | .hbm, ⟨5, _⟩ => ⟨S_, .f32⟩
  | .hbm, ⟨6, _⟩ => ⟨S16384x3717, .f32⟩
  | .hbm, ⟨7, _⟩ => ⟨S16384, .i32⟩
  | .hbm, ⟨8, _⟩ => ⟨S16384x1, .i32⟩
  | .hbm, ⟨9, _⟩ => ⟨S_, .i32⟩
  | .hbm, ⟨10, _⟩ => ⟨S16384x1, .i32⟩
  | .hbm, ⟨11, _⟩ => ⟨S16384x1, .i1⟩
  | .hbm, ⟨12, _⟩ => ⟨S_, .i32⟩
  | .hbm, ⟨13, _⟩ => ⟨S16384x1, .i32⟩
  | .hbm, ⟨14, _⟩ => ⟨S16384x1, .i32⟩
  | .hbm, ⟨15, _⟩ => ⟨S16384x1, .i32⟩
  | .hbm, ⟨16, _⟩ => ⟨S_, .i32⟩
  | .hbm, ⟨17, _⟩ => ⟨S16384x64, .i32⟩
  | .hbm, ⟨18, _⟩ => ⟨S16384x64, .i1⟩
  | .hbm, ⟨19, _⟩ => ⟨S_, .i32⟩
  | .hbm, ⟨20, _⟩ => ⟨S16384x64, .i32⟩
  | .hbm, ⟨21, _⟩ => ⟨S16384x64, .i32⟩
  | .hbm, ⟨22, _⟩ => ⟨S16384x64, .i32⟩
  | .hbm, ⟨23, _⟩ => ⟨S16384x64, .i32⟩
  | .hbm, ⟨24, _⟩ => ⟨S16384x64x1, .i32⟩
  | .hbm, ⟨25, _⟩ => ⟨S16384x64x1, .i32⟩
  | .hbm, ⟨26, _⟩ => ⟨S16384x64x2, .i32⟩
  | .hbm, ⟨27, _⟩ => ⟨S_, .f32⟩
  | .hbm, ⟨28, _⟩ => ⟨S16384x64, .f32⟩
  | .hbm, ⟨29, _⟩ => ⟨S16384x3717, .f32⟩
  | .hbm, ⟨30, _⟩ => ⟨S_, .i32⟩
  | .hbm, ⟨31, _⟩ => ⟨S3, .i32⟩
  | .hbm, ⟨32, _⟩ => ⟨S3, .i1⟩
  | .hbm, ⟨33, _⟩ => ⟨S_, .i32⟩
  | .hbm, ⟨34, _⟩ => ⟨S3, .i32⟩
  | .hbm, ⟨35, _⟩ => ⟨S3, .i32⟩
  | .hbm, ⟨36, _⟩ => ⟨S3, .i32⟩
  | .hbm, ⟨37, _⟩ => ⟨S3x1, .i32⟩
  | .hbm, ⟨38, _⟩ => ⟨S_, .f32⟩
  | .hbm, ⟨39, _⟩ => ⟨S16384x3, .f32⟩
  | .hbm, ⟨40, _⟩ => ⟨S16384x3717, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x3717, .f32⟩
  | .hbm, ⟨48, _⟩ => ⟨S16384x3717, .f32⟩
  | .hbm, ⟨49, _⟩ => ⟨S_, .f32⟩
  | .hbm, ⟨50, _⟩ => ⟨S16384x3717, .f32⟩
  | .hbm, ⟨51, _⟩ => ⟨S16384x3717, .f32⟩
  | .hbm, ⟨52, _⟩ => ⟨S16384x3717, .f32⟩
  | .hbm, ⟨53, _⟩ => ⟨S16384x3717, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S32x32x32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  shapeCasts_S32x32x32x32_S32x8x4x8x4x8x4 : S32x32x32x32.ShapeCasts S32x8x4x8x4x8x4
  transposes_S32x8x4x8x4x8x4_S32x8x8x8x4x4x4_0_1_3_5_2_4_6 : S32x8x4x8x4x8x4.Transposes [0, 1, 3, 5, 2, 4, 6] S32x8x8x8x4x4x4
  shapeCasts_S32x8x8x8x4x4x4_S16384x64 : S32x8x8x8x4x4x4.ShapeCasts S16384x64
  bcast_S_S16384x3717 : S_.BroadcastsInDim S16384x3717 (![] : Fin 0 → Fin S16384x3717.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  bcast_S_S3 : S_.BroadcastsInDim S3 (![] : Fin 0 → Fin S3.rank)
  bcast_S3_S3x1_0 : S3.BroadcastsInDim S3x1 (![0] : Fin 1 → Fin S3x1.rank)
  bcast_S_S16384x3 : S_.BroadcastsInDim S16384x3 (![] : Fin 0 → Fin S16384x3.rank)
  reducesTo_S16384x3717_S16384_d1 : S16384x3717.ReducesTo [1] S16384
  h_S_ : 0 < S_.numel
  bcast_S_S16384 : S_.BroadcastsInDim S16384 (![] : Fin 0 → Fin S16384.rank)
  bcast_S16384x1_S16384x3717_0_1 : S16384x1.BroadcastsInDim S16384x3717 (![0, 1] : Fin 2 → Fin S16384x3717.rank)
  reducesTo_S16384_S_d0 : S16384.ReducesTo [0] S_
  scatter_S16384x3717_S16384x64x2_S16384x64_n_01_01_2_wf : ScatterDims.WF S16384x3717 S16384x64x2 S16384x64 [] [0, 1] [0, 1] 2
  scatter_S16384x3717_S3x1_S16384x3_0_1_1_1_wf : ScatterDims.WF S16384x3717 S3x1 S16384x3 [0] [1] [1] 1

variable [Facts₀]

def scatter_S16384x3717_S16384x64x2_S16384x64_n_01_01_2 : ScatterDims S16384x3717 S16384x64x2 S16384x64 where
  updateWindowDims := []
  insertedWindowDims := [0, 1]
  scatterDimsToOperandDims := [0, 1]
  indexVectorDim := 2
  wf := scatter_S16384x3717_S16384x64x2_S16384x64_n_01_01_2_wf
def scatter_S16384x3717_S3x1_S16384x3_0_1_1_1 : ScatterDims S16384x3717 S3x1 S16384x3 where
  updateWindowDims := [0]
  insertedWindowDims := [1]
  scatterDimsToOperandDims := [1]
  indexVectorDim := 1
  wf := scatter_S16384x3717_S3x1_S16384x3_0_1_1_1_wf

class Facts : Prop extends Facts₀ where

variable [Facts]
-- ==== Proof.Tokens.lean ====
/-
  The mathematics of one patch, with no program in sight.

  A patch is 64 tokens (32-bit words). Three token values are "air" and do not count. For a patch `t`:
    * `mult t w` is how many of the 64 tokens equal the word `w`;
    * the KERNEL'S entropy sums, over the live tokens `i`, the term `-(p log (p + ε)) / n` with `n` the multiplicity of
      token `i`'s value and `p = n / max tot 1`, `tot` the number of live tokens;
    * the REFERENCE'S entropy sums `-(p log (p + ε))` over the 3717 bins `v` of a histogram of the live tokens, with
      `p = bin v / max tot 1` and `tot` the histogram's total.
  The kernel finds a token's multiplicity by comparing the patch with its 63 cyclic shifts: `shiftCount` is that
  running count, `back i s` the position `s` places before `i` around the cycle of 64.
-/
import Idealize.ShloMosaic.PureOps.Ideal

noncomputable section

namespace Cert.Tokens

open Idealize.ShloMosaic

/-- The 64 tokens of one patch. -/
abbrev Patch : Type := Fin 64 → BitVec 32

/-- The three token values that do not count. -/
def isAir (w : BitVec 32) : Prop := w = 102#32 ∨ w = 576#32 ∨ w = 3352#32

instance (w : BitVec 32) : Decidable (isAir w) := by unfold isAir; infer_instance

/-- The small constant under the logarithm (the same word in both programs). -/
def ε : EReal := Ideal.ofBits .f32 0x2EDBE6FF#32

/-- How many of the patch's tokens equal `w`. -/
def mult (t : Patch) (w : BitVec 32) : ℕ := (Finset.univ.filter fun j : Fin 64 => t j = w).card

/-- The multiplicity of token `i`'s value, zero at an air token. -/
def liveMult (t : Patch) (i : Fin 64) : EReal := if isAir (t i) then 0 else ((mult t (t i) : ℝ) : EReal)

/-- The number of live tokens, as a sum of ones. -/
def liveSum (t : Patch) : EReal := ∑ i : Fin 64, if isAir (t i) then (0 : EReal) else 1

/-- `p · log (p + ε)` at the share `p = n / max tot 1`. -/
def plogp (n tot : EReal) : EReal := Ideal.div n (max tot 1) * Ideal.log (Ideal.div n (max tot 1) + ε)

/-- The kernel's value for a patch. -/
def kernelEntropy (t : Patch) : EReal :=
  ∑ i : Fin 64, if isAir (t i) then (0 : EReal)
    else Ideal.div (0 - plogp (liveMult t i) (liveSum t)) (max (liveMult t i) 1)

/-- Bin `v` of the patch's histogram, the air bins emptied. -/
def bin (t : Patch) (v : Fin 3717) : EReal :=
  if isAir (BitVec.ofNat 32 v.val) then 0 else ((mult t (BitVec.ofNat 32 v.val) : ℝ) : EReal)

/-- The reference's value for a patch. -/
def refEntropy (t : Patch) : EReal := -(∑ v : Fin 3717, plogp (bin t v) (∑ v' : Fin 3717, bin t v'))

/-- The position `s` places before `i` around the cycle of 64. -/
def back (i : Fin 64) (s : ℕ) : Fin 64 := ⟨(i.val + 64 - s % 64) % 64, Nat.mod_lt _ (by decide)⟩

/-- One comparison: token `i` equals token `j` and is live. -/
def hit (t : Patch) (i j : Fin 64) : EReal := if t i = t j ∧ ¬ isAir (t i) then 1 else 0

/-- The kernel's running count at token `i` after the shifts `1 … n`: the token itself, then per shift `s` the
    comparison with the token `s` places back and the same comparison made at the position `64 - s` places back. -/
def shiftCount (t : Patch) (i : Fin 64) : ℕ → EReal
  | 0 => if isAir (t i) then 0 else 1
  | n + 1 => shiftCount t i n + hit t i (back i (n + 1))
      + hit t (back i (64 - (n + 1))) (back (back i (64 - (n + 1))) (n + 1))

end Cert.Tokens

end
-- ==== Proof.ShiftCount.lean ====
/-
  The 63 cyclic shifts of a patch meet every other position exactly once: the running count after the shifts 1 … 31
  (each with its mirror image) and the half-turn shift 32 is the token's multiplicity, or zero at an air token.
-/
import proofs.«413189_j54666343744090_3_alg».proof.Proof.Tokens

noncomputable section

namespace Cert.Tokens

open Idealize.ShloMosaic

/-- Going `64 - s` places back and then `s` places back is a full turn (for a shift `1 ≤ s ≤ 31`). -/
private theorem back_back (i : Fin 64) (s : ℕ) (h1 : 1 ≤ s) (h2 : s ≤ 31) :
    back (back i (64 - s)) s = i := by
  have hi := i.isLt
  apply Fin.ext
  simp only [back]
  omega

/-- Zero places back is the position itself. -/
private theorem back_zero (i : Fin 64) : back i 0 = i := by
  have hi := i.isLt
  apply Fin.ext
  simp only [back]
  omega

/-- Going back by the offset that `back i d` is, returns the offset: `d ↦ i - d` is an involution of the cycle. -/
private theorem back_invol (i d : Fin 64) : back i (back i d.val).val = d := by
  have hi := i.isLt
  have hd := d.isLt
  apply Fin.ext
  simp only [back]
  omega

private theorem back_bijective (i : Fin 64) : Function.Bijective (fun d : Fin 64 => back i d.val) :=
  Function.Involutive.bijective (back_invol i)

/-- Equal tokens are air together, so a comparison may be read from either end. -/
private theorem hit_comm_of (t : Patch) (i j : Fin 64) : hit t j i = hit t i j := by
  unfold hit
  by_cases h : t i = t j
  · simp [h]
  · have h' : ¬ t j = t i := fun e => h e.symm
    simp [h, h']

/-- A token compared with itself counts exactly when it is live. -/
private theorem hit_self (t : Patch) (i : Fin 64) : hit t i i = if isAir (t i) then 0 else 1 := by
  unfold hit
  by_cases h : isAir (t i) <;> simp [h]

/-- The running count after the shifts `1 … n`, written over offsets: the mirror comparison of shift `s`, made at the
    position `64 - s` places back, looks `s` places back from there, that is at `i` itself. -/
private theorem shiftCount_eq (t : Patch) (i : Fin 64) (n : ℕ) (hn : n ≤ 31) :
    shiftCount t i n = hit t i (back i 0)
      + ∑ s ∈ Finset.range n, (hit t i (back i (s + 1)) + hit t i (back i (64 - (s + 1)))) := by
  induction n with
  | zero =>
    simp only [shiftCount, Finset.range_zero, Finset.sum_empty, add_zero]
    rw [back_zero, hit_self]
  | succ n ih =>
    simp only [shiftCount]
    rw [ih (by omega), back_back i (n + 1) (by omega) hn, hit_comm_of t i (back i (64 - (n + 1))),
      Finset.sum_range_succ]
    simp only [add_assoc]

/-- The offsets `0`, `1 … 31` with their mirrors `63 … 33`, and `32` are all of `0 … 63`, each once. -/
private theorem sum_fold (g : ℕ → EReal) :
    g 0 + ∑ s ∈ Finset.range 31, (g (s + 1) + g (64 - (s + 1))) + g 32 = ∑ d ∈ Finset.range 64, g d := by
  simp only [Finset.sum_range_succ, Finset.sum_range_zero]
  norm_num
  abel

/-- A sum of indicators is the size of the set they indicate. -/
private theorem sum_ind_eq_card (p : Fin 64 → Prop) [DecidablePred p] (s : Finset (Fin 64)) :
    ∑ j ∈ s, (if p j then (1 : EReal) else 0) = (((s.filter p).card : ℝ) : EReal) := by
  induction s using Finset.induction_on with
  | empty => simp
  | insert a s ha ih =>
    rw [Finset.sum_insert ha, ih, Finset.filter_insert]
    by_cases h : p a
    · have hna : a ∉ s.filter p := fun hm => ha (Finset.mem_filter.mp hm).1
      rw [if_pos h, if_pos h, Finset.card_insert_of_notMem hna, Nat.cast_succ, EReal.coe_add, EReal.coe_one,
        add_comm]
    · rw [if_neg h, if_neg h, zero_add]

/-- Over all 64 positions the comparisons with token `i` count its multiplicity, or nothing at an air token. -/
private theorem sum_hit (t : Patch) (i : Fin 64) : ∑ j : Fin 64, hit t i j = liveMult t i := by
  unfold liveMult
  by_cases h : isAir (t i)
  · rw [if_pos h]
    apply Finset.sum_eq_zero
    intro j _
    unfold hit
    simp [h]
  · rw [if_neg h]
    unfold mult
    rw [← sum_ind_eq_card]
    apply Finset.sum_congr rfl
    intro j _
    unfold hit
    by_cases e : t i = t j
    · rw [if_pos ⟨e, h⟩, if_pos e.symm]
    · rw [if_neg (fun c => e c.1), if_neg (fun c => e c.symm)]

theorem shiftCount_full (t : Patch) (i : Fin 64) : shiftCount t i 31 + hit t i (back i 32) = liveMult t i := by
  have hfold := sum_fold (fun d => hit t i (back i d))
  beta_reduce at hfold
  have hfin : ∑ d : Fin 64, hit t i (back i d.val) = ∑ d ∈ Finset.range 64, hit t i (back i d) :=
    Fin.sum_univ_eq_sum_range (fun d => hit t i (back i d)) 64
  have hbij : ∑ d : Fin 64, hit t i (back i d.val) = ∑ j : Fin 64, hit t i j :=
    (back_bijective i).sum_comp (fun j => hit t i j)
  rw [shiftCount_eq t i 31 le_rfl, hfold, ← hfin, hbij, sum_hit]

end Cert.Tokens

end
-- ==== Proof.Rounds.lean ====
/-
  One round of the kernel's count, read at an entry of a [64, 4096] block of words: the live mask, a token compared
  with the one `s` rows back (a rotation along the rows), and that comparison's mask rotated on by `s'` rows.
-/
import proofs.«413189_j54666343744090_3_alg».proof.Proof.Gen.KernelIdeal
import proofs.«413189_j54666343744090_3_alg».proof.Proof.Tokens
import Idealize.ShloMosaic.Lib.ValueIdx
import Idealize.ShloMosaic.Lib.KernelVsHost

noncomputable section

namespace Cert.KernelIdeal.Rounds

open Cert.KernelIdeal Cert.Tokens Idealize.ShloMosaic Idealize.ShloMosaic.ValueIdx

/-- Column `q` of a block of words, as a patch. -/
abbrev col (x : IVec S64x4096 32) (q : Fin 4096) : Patch := fun i => x (ix2 i q)

/-- A mask vector that marks the live tokens of `x`. -/
def IsLive (x : IVec S64x4096 32) (v : IVec S64x4096 1) : Prop :=
  ∀ (i : Fin 64) (q : Fin 4096), v (ix2 i q) = if isAir (x (ix2 i q)) then 0#1 else 1#1

/-! ## Words -/

/-- A one-bit word is `0` or `1`. -/
theorem bit_cases (b : BitVec 1) : b = 0#1 ∨ b = 1#1 := BitVec.eq_zero_or_eq_one b

/-- The comparison "differs" of two words, as a bit. -/
theorem cmpi_ne_word (a c : BitVec 32) : IntOp.cmpi .ne a c = if a = c then 0#1 else 1#1 := by
  unfold IntOp.cmpi
  by_cases h : a = c
  · subst h; simp
  · have hb : (a != c) = true := by simpa using h
    rw [if_neg h]
    show BitVec.ofBool (a != c) = 1#1
    rw [hb]; rfl

/-- The comparison "equals" of two words, as a bit. -/
theorem cmpi_eq_word (a c : BitVec 32) : IntOp.cmpi .eq a c = if a = c then 1#1 else 0#1 := by
  unfold IntOp.cmpi
  by_cases h : a = c
  · subst h; simp
  · have hb : (a == c) = false := by simpa using h
    rw [if_neg h]
    show BitVec.ofBool (a == c) = 0#1
    rw [hb]; rfl

/-- The and-chain of the three "differs from an air value" bits is the live bit. -/
theorem live_word (w : BitVec 32) :
    IntOp.andi (IntOp.andi (IntOp.andi (1#1 : BitVec 1) (IntOp.cmpi .ne w 102#32)) (IntOp.cmpi .ne w 576#32)) (IntOp.cmpi .ne w 3352#32)
      = if isAir w then 0#1 else 1#1 := by
  rw [cmpi_ne_word, cmpi_ne_word, cmpi_ne_word]
  unfold isAir IntOp.andi
  by_cases h1 : w = 102#32
  · subst h1; decide
  · by_cases h2 : w = 576#32
    · subst h2; decide
    · by_cases h3 : w = 3352#32
      · subst h3; decide
      · simp [h1, h2, h3]

/-- A widened bit converted signed, at the ideal values: the bit as a number. -/
theorem sitofp_bit (φ : FTy) (b : BitVec 1) :
    (FloatOps.sitofp φ (b.setWidth 32) : Ideal φ) = if b = 1#1 then (1 : EReal) else 0 := by
  show ((((b.setWidth 32).toInt : ℤ) : ℝ) : EReal) = _
  rcases bit_cases b with rfl | rfl
  · simp
  · simp

/-- The mask the kernel builds marks the live tokens. -/
theorem mask_isLive (x : IVec S64x4096 32) :
    IsLive x (andi (andi (andi (broadcast S64x4096 (1#1 : BitVec 1)) (cmpi .ne x (broadcast S64x4096 (102#32 : BitVec 32))))
      (cmpi .ne x (broadcast S64x4096 (576#32 : BitVec 32)))) (cmpi .ne x (broadcast S64x4096 (3352#32 : BitVec 32)))) := by
  intro i q
  exact live_word (x (ix2 i q))

/-- The mask as a number: one at a live token, zero at air. -/
theorem self_apply (φ : FTy) (hw : 1 < 32) (x : IVec S64x4096 32) (v : IVec S64x4096 1) (hv : IsLive x v) (i : Fin 64) (q : Fin 4096) :
    (sitofp φ (extui 32 v hw) : FVec Ideal S64x4096 φ) (ix2 i q) = if isAir (x (ix2 i q)) then (0 : EReal) else 1 := by
  show (FloatOps.sitofp φ ((v (ix2 i q)).setWidth 32) : Ideal φ) = _
  rw [sitofp_bit, hv i q]
  by_cases h : isAir (x (ix2 i q))
  · simp [h]
  · simp [h]

/-- The row `s` back, as an index of the block: what a rotation along the rows by `s` reads. -/
theorem rotate_apply {α : Type} (hr : S64x4096.Rotates 0 none) (sb : BitVec 32) (s : ℕ) (hsb : sb.toNat = s)
    (y : S64x4096.Idx → α) (i : Fin 64) (q : Fin 4096) :
    dynamicRotate 0 sb none y hr (ix2 i q) = y (ix2 (back i s) q) := by
  refine dynamicRotate_apply 0 sb y hr (ix2 i q) (ix2 (back i s) q) ?_
  intro b
  match b with
  | ⟨0, _⟩ => subst hsb; rfl
  | ⟨1, _⟩ => rfl

/-- The comparison with another token, masked by the live bit, as a number. -/
theorem hit_word (φ : FTy) (a c : BitVec 32) :
    (FloatOps.sitofp φ ((IntOp.andi (IntOp.cmpi .eq a c) (if isAir a then 0#1 else 1#1)).setWidth 32) : Ideal φ)
      = if a = c ∧ ¬ isAir a then (1 : EReal) else 0 := by
  rw [sitofp_bit, cmpi_eq_word]
  unfold IntOp.andi
  by_cases h : a = c
  · by_cases h' : isAir a
    · have e : ¬ (a = c ∧ ¬ isAir a) := fun hh => hh.2 h'
      rw [if_pos h, if_pos h', if_neg e, if_neg (show ¬ ((1#1 : BitVec 1) &&& 0#1 = 1#1) by decide)]
    · rw [if_pos h, if_neg h', if_pos (⟨h, h'⟩ : a = c ∧ ¬ isAir a), if_pos (show ((1#1 : BitVec 1) &&& 1#1 = 1#1) by decide)]
  · have e : ¬ (a = c ∧ ¬ isAir a) := fun hh => h hh.1
    by_cases h' : isAir a
    · rw [if_neg h, if_pos h', if_neg e, if_neg (show ¬ ((0#1 : BitVec 1) &&& 0#1 = 1#1) by decide)]
    · rw [if_neg h, if_neg h', if_neg e, if_neg (show ¬ ((0#1 : BitVec 1) &&& 1#1 = 1#1) by decide)]

/-- The comparison with the token `s` rows back. -/
theorem fwd_apply (φ : FTy) (hw : 1 < 32) (hr : S64x4096.Rotates 0 none) (sb : BitVec 32) (s : ℕ) (hsb : sb.toNat = s)
    (x : IVec S64x4096 32) (v : IVec S64x4096 1) (hv : IsLive x v) (i : Fin 64) (q : Fin 4096) :
    (sitofp φ (extui 32 (andi (cmpi .eq x (dynamicRotate 0 sb none x hr)) v) hw) : FVec Ideal S64x4096 φ) (ix2 i q)
      = hit (col x q) i (back i s) := by
  show (FloatOps.sitofp φ ((IntOp.andi (IntOp.cmpi .eq (x (ix2 i q)) (dynamicRotate 0 sb none x hr (ix2 i q))) (v (ix2 i q))).setWidth 32) : Ideal φ) = _
  rw [rotate_apply hr sb s hsb x i q, hv i q, hit_word]
  rfl

/-- That comparison's mask, rotated on by `s'` rows: the comparison made at the row `s'` back. -/
theorem bwd_apply (φ : FTy) (hw : 1 < 32) (hr : S64x4096.Rotates 0 none) (sb sb' : BitVec 32) (s s' : ℕ) (hsb : sb.toNat = s) (hsb' : sb'.toNat = s')
    (x : IVec S64x4096 32) (v : IVec S64x4096 1) (hv : IsLive x v) (i : Fin 64) (q : Fin 4096) :
    (sitofp φ (dynamicRotate 0 sb' none (extui 32 (andi (cmpi .eq x (dynamicRotate 0 sb none x hr)) v) hw) hr) : FVec Ideal S64x4096 φ) (ix2 i q)
      = hit (col x q) (back i s') (back (back i s') s) := by
  show (FloatOps.sitofp φ (dynamicRotate 0 sb' none (extui 32 (andi (cmpi .eq x (dynamicRotate 0 sb none x hr)) v) hw) hr (ix2 i q)) : Ideal φ) = _
  rw [rotate_apply hr sb' s' hsb' _ i q]
  exact fwd_apply φ hw hr sb s hsb x v hv (back i s') q

end Cert.KernelIdeal.Rounds

end
-- ==== Proof.KernelBody.lean ====
/-
  What the kernel's body stores at lane `q` of its output block: the kernel's entropy of column `q` of the input block.

  The count is read shift by shift: each group of operations carries the running count `shiftCount` from one shift to a
  later one (some groups stop halfway through a shift, after its forward comparison), the last completes shift 31 and adds
  the half-turn shift 32, which makes the count the token's multiplicity. The tail divides by the number of live tokens
  (the sum of the live mask over the 64 rows), takes `-(p log (p + ε)) / n` at the live tokens and zero at air, and
  sums over the rows.
-/
import proofs.«413189_j54666343744090_3_alg».proof.Proof.Gen.KernelIdeal.Frame
import proofs.«413189_j54666343744090_3_alg».proof.Proof.Tokens
import proofs.«413189_j54666343744090_3_alg».proof.Proof.ShiftCount
import proofs.«413189_j54666343744090_3_alg».proof.Proof.Rounds
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Body

open Cert.KernelIdeal Cert.KernelIdeal.Gen Cert.KernelIdeal.Rounds Cert.Tokens Idealize.ShloMosaic Idealize.ShloMosaic.ValueIdx

/-- The cast of the block to its own shape changes nothing. -/
theorem pay2_eq (x0 : Vec Ideal S64x4096 .i32) : k0_pay2 (F := Ideal) x0 = x0 := by
  unfold k0_pay2
  exact shapeCast_self _ _

/-- The mask built from the block marks its live tokens. -/
theorem pay3_live (x0 : Vec Ideal S64x4096 .i32) : IsLive x0 (k0_pay3 (F := Ideal) x0) := by
  unfold k0_pay3
  simp only [pay2_eq]
  exact mask_isLive x0

/-- The comparison with the token `sb` rows back, the shift given as a word. -/
theorem fwd' (φ : FTy) (sb : BitVec 32) (x : IVec S64x4096 32) (v : IVec S64x4096 1) (hv : IsLive x v) (i : Fin 64) (q : Fin 4096) :
    (sitofp φ (extui 32 (andi (cmpi .eq x (dynamicRotate 0 sb none x rotates_S64x4096_d0)) v) natLt_1_32) : FVec Ideal S64x4096 φ) (ix2 i q)
      = hit (col x q) i (back i sb.toNat) :=
  fwd_apply φ _ _ sb sb.toNat rfl x v hv i q

/-- That comparison made at the row `sb'` back, both shifts given as words. -/
theorem bwd' (φ : FTy) (sb sb' : BitVec 32) (x : IVec S64x4096 32) (v : IVec S64x4096 1) (hv : IsLive x v) (i : Fin 64) (q : Fin 4096) :
    (sitofp φ (dynamicRotate 0 sb' none (extui 32 (andi (cmpi .eq x (dynamicRotate 0 sb none x rotates_S64x4096_d0)) v) natLt_1_32) rotates_S64x4096_d0) : FVec Ideal S64x4096 φ) (ix2 i q)
      = hit (col x q) (back i sb'.toNat) (back (back i sb'.toNat) sb.toNat) :=
  bwd_apply φ _ _ sb sb' sb.toNat sb'.toNat rfl rfl x v hv i q

/-- The added row index of the sum over the rows, at lane `q`: row `k`, lane `q`. -/
theorem lift_eq (k : Fin 64) (q : Fin 4096) : reduces_S64x4096_S4096.lift (ix1 q) k = ix2 k q := by
  funext a
  match a with
  | ⟨0, _⟩ => exact Fin.ext rfl
  | ⟨1, _⟩ => exact Fin.ext rfl

/-- A sum over the rows of a [64, 4096] block, read at lane `q`. -/
theorem rowsum_apply (src : FVec Ideal S64x4096 .f32) (hφ : FKind.Formats .f32)
    (hacc : (0x00000000#32 : BitVec 32) = FKind.add.neutral .f32 hφ) (q : Fin 4096) :
    multiReduction .add [0] S4096 src 0x00000000#32 reduces_S64x4096_S4096 hφ hacc (ix1 q) = ∑ k : Fin 64, src (ix2 k q) := by
  refine (Ideal.multiReduction_add_single src _ reduces_S64x4096_S4096 hφ hacc (ix1 q)).trans ?_
  exact Finset.sum_congr rfl fun k _ => congrArg src (lift_eq k q)

/-- A logarithm at an index is the logarithm of the element. -/
theorem log_at {s : Shape} {φ : FTy} (a : FVec Ideal s φ) (i : s.Idx) : log a i = Ideal.log (a i) := rfl

/-- The running count after the shifts 1, 2, 3. -/
theorem pay4_apply (x0 : Vec Ideal S64x4096 .i32) (q : Fin 4096) (i : Fin 64) :
    k0_pay4 (F := Ideal) x0 (ix2 i q) = shiftCount (col x0 q) i 3 := by
  have hv := pay3_live x0
  simp only [k0_pay4, pay2_eq, addf_apply, truncf_apply, fwd' _ _ x0 _ hv, bwd' _ _ _ x0 _ hv, self_apply _ _ x0 _ hv,
    shiftCount, BitVec.reduceToNat, Nat.reduceAdd, Nat.reduceSub]

/-- The comparison words of the shift 4. -/
theorem pay5_eq (x0 : Vec Ideal S64x4096 .i32) :
    k0_pay5 (F := Ideal) x0
      = extui 32 (andi (cmpi .eq x0 (dynamicRotate 0 4#32 none x0 rotates_S64x4096_d0)) (k0_pay3 (F := Ideal) x0)) natLt_1_32 := by
  unfold k0_pay5
  simp only [pay2_eq]

section
variable (x : IVec S64x4096 32) (v : IVec S64x4096 1) (hv : IsLive x v) (q : Fin 4096)
include hv

/-- From the count after shift 3 to the count after shift 8 and the forward half of shift 9. -/
theorem pay7_apply (v41 : FVec Ideal S64x4096 .bf16) (h41 : ∀ i, v41 (ix2 i q) = shiftCount (col x q) i 3) (i : Fin 64) :
    k0_pay7 (F := Ideal) x v v41
        (extui 32 (andi (cmpi .eq x (dynamicRotate 0 4#32 none x rotates_S64x4096_d0)) v) natLt_1_32) (ix2 i q)
      = shiftCount (col x q) i 8 + hit (col x q) i (back i 9) := by
  simp only [k0_pay7, k0_pay6, addf_apply, h41, fwd' _ _ x v hv, bwd' _ _ _ x v hv, shiftCount, BitVec.reduceToNat, Nat.reduceAdd, Nat.reduceSub]

/-- The mirrored half of shift 9. -/
theorem pay8_apply (i : Fin 64) :
    k0_pay8 (F := Ideal) x v (ix2 i q) = hit (col x q) (back i 55) (back (back i 55) 9) := by
  simp only [k0_pay8, k0_pay6, bwd' _ _ _ x v hv, BitVec.reduceToNat, Nat.reduceAdd, Nat.reduceSub]

/-- Shift 9 completed, then the shifts 10 to 14. -/
theorem pay9_apply (v93 v94 : FVec Ideal S64x4096 .bf16)
    (h93 : ∀ i, v93 (ix2 i q) = shiftCount (col x q) i 8 + hit (col x q) i (back i 9))
    (h94 : ∀ i, v94 (ix2 i q) = hit (col x q) (back i 55) (back (back i 55) 9)) (i : Fin 64) :
    k0_pay9 (F := Ideal) x v v93 v94 (ix2 i q) = shiftCount (col x q) i 14 := by
  simp only [k0_pay9, addf_apply, h93, h94, fwd' _ _ x v hv, bwd' _ _ _ x v hv, shiftCount, BitVec.reduceToNat, Nat.reduceAdd, Nat.reduceSub]

/-- The shifts 15 to 19 and the forward half of shift 20. -/
theorem pay13_apply (v140 : FVec Ideal S64x4096 .bf16) (h140 : ∀ i, v140 (ix2 i q) = shiftCount (col x q) i 14) (i : Fin 64) :
    k0_pay13 (F := Ideal) x v v140 (k0_pay10 x v) (ix2 i q)
      = shiftCount (col x q) i 19 + hit (col x q) i (back i 20) := by
  simp only [k0_pay13, k0_pay10, k0_pay11, addf_apply, h140, fwd' _ _ x v hv, bwd' _ _ _ x v hv, shiftCount, BitVec.reduceToNat, Nat.reduceAdd, Nat.reduceSub]

/-- Shift 20 completed, then the shifts 21 to 25. -/
theorem pay14_apply (v192 : FVec Ideal S64x4096 .bf16)
    (h192 : ∀ i, v192 (ix2 i q) = shiftCount (col x q) i 19 + hit (col x q) i (back i 20)) (i : Fin 64) :
    k0_pay14 (F := Ideal) x v (k0_pay12 x v) v192 (ix2 i q) = shiftCount (col x q) i 25 := by
  simp only [k0_pay14, k0_pay12, k0_pay11, addf_apply, h192, fwd' _ _ x v hv, bwd' _ _ _ x v hv, shiftCount, BitVec.reduceToNat, Nat.reduceAdd, Nat.reduceSub]

/-- The shifts 26 to 30. -/
theorem pay16_apply (v239 : FVec Ideal S64x4096 .bf16) (h239 : ∀ i, v239 (ix2 i q) = shiftCount (col x q) i 25) (i : Fin 64) :
    k0_pay16 (F := Ideal) x v v239 (k0_pay15 x) (ix2 i q) = shiftCount (col x q) i 30 := by
  simp only [k0_pay16, k0_pay15, addf_apply, h239, fwd' _ _ x v hv, bwd' _ _ _ x v hv, shiftCount, BitVec.reduceToNat, Nat.reduceAdd, Nat.reduceSub]

/-- Shift 31 and the half-turn shift 32: the count is the token's multiplicity, zero at air. -/
theorem count_apply (v284 : FVec Ideal S64x4096 .bf16) (h284 : ∀ i, v284 (ix2 i q) = shiftCount (col x q) i 30) (i : Fin 64) :
    (addf (addf (addf v284 (k0_pay19 (F := Ideal) x v)) (sitofp .bf16 (k0_pay18 x v)))
        (truncf .bf16 (sitofp .f32 (extui 32 (andi (cmpi .eq x (dynamicRotate 0 32#32 none x rotates_S64x4096_d0)) v) natLt_1_32))
          bitsLt_bf16_f32) : FVec Ideal S64x4096 .bf16) (ix2 i q)
      = liveMult (col x q) i := by
  rw [← shiftCount_full]
  simp only [k0_pay19, k0_pay18, k0_pay17, addf_apply, truncf_apply, h284, fwd' _ _ x v hv, bwd' _ _ _ x v hv, shiftCount, BitVec.reduceToNat, Nat.reduceAdd, Nat.reduceSub]

/-- The sum of the live mask over the rows of lane `q`: the number of live tokens. -/
theorem tot_apply :
    (multiReduction .add [0] S4096 (sitofp .f32 (extui 32 v natLt_1_32) : FVec Ideal S64x4096 .f32) 0x00000000#32
        reduces_S64x4096_S4096 (.inl rfl) rfl) (ix1 q) = liveSum (col x q) := by
  refine (rowsum_apply _ _ _ q).trans ?_
  unfold liveSum
  exact Finset.sum_congr rfl fun k _ => self_apply .f32 _ x v hv k q

end

section
variable (x : IVec S64x4096 32) (v : IVec S64x4096 1) (hv : IsLive x v) (q : Fin 4096)
include hv

/-- The count completed, each live token's share and term, and the sum of the terms over the rows. -/
theorem pay1_apply (v284 : FVec Ideal S64x4096 .bf16) (h284 : ∀ i, v284 (ix2 i q) = shiftCount (col x q) i 30) :
    k0_pay1 (F := Ideal) x v v284 (k0_pay18 x v) (k0_pay19 (F := Ideal) x v) (ix1 q) = kernelEntropy (col x q) := by
  have hn := count_apply x v hv q v284 h284
  have ht := tot_apply x v hv q
  unfold k0_pay1
  dsimp only
  generalize (addf (addf (addf v284 (k0_pay19 (F := Ideal) x v)) (sitofp .bf16 (k0_pay18 x v)))
        (truncf .bf16 (sitofp .f32 (extui 32 (andi (cmpi .eq x (dynamicRotate 0 32#32 none x rotates_S64x4096_d0)) v) natLt_1_32))
          bitsLt_bf16_f32) : FVec Ideal S64x4096 .bf16) = cnt at hn ⊢
  refine (rowsum_apply _ _ _ q).trans ?_
  unfold kernelEntropy
  refine Finset.sum_congr rfl fun k _ => ?_
  rw [select_apply, hv k q]
  by_cases ha : isAir (x (ix2 k q))
  · rw [if_pos ha, if_pos ha, select_zero, broadcast_apply]
    exact Ideal.ofBits_zero_f32
  · rw [if_neg ha, if_neg ha, select_one]
    simp only [divf_apply, subf_apply, mulf_apply, addf_apply, maximumf_apply, broadcast_apply, extf_apply, log_at,
      broadcastTo_1b_ab_apply, shapeCast_a_1a_apply, hn, ht, Ideal.ofBits_def, Ideal.ofBits_zero_f32, Ideal.ofBits_one_f32]
    rfl

end

/-- Lane `q` of the body's result is the kernel's entropy of column `q`. -/
theorem out0_1_apply (x0 : Vec Ideal S64x4096 .i32) (q : Fin 4096) :
    out0_1 (F := Ideal) x0 (ix1 q) = kernelEntropy (fun i => x0 (ix2 i q)) := by
  have hz : (![0] : Fin 1 → Nat) = fun _ => 0 := funext fun a => by fin_cases a <;> rfl
  have hz' : (![0, 0] : Fin 2 → Nat) = fun _ => 0 := funext fun a => by fin_cases a <;> rfl
  have hv := pay3_live x0
  unfold out0_1
  rw [View.canon_unit_zero hz]
  simp only [View.ld_unit_zero (S := S64x4096) hz', pay2_eq, pay5_eq]
  exact pay1_apply x0 _ hv q _ fun i =>
    pay16_apply x0 _ hv q _ (fun i =>
      pay14_apply x0 _ hv q _ (fun i =>
        pay13_apply x0 _ hv q _ (fun i =>
          pay9_apply x0 _ hv q _ _ (fun i =>
            pay7_apply x0 _ hv q _ (fun i => pay4_apply x0 q i) i)
            (fun i => pay8_apply x0 _ hv q i) i) i) i) i

end Cert.KernelIdeal.Body

end
-- ==== Proof.Total.lean ====
/-
  The last two host operations, which both programs share: the sum of the 16384 per-patch entropies, divided by 16384.
-/
import Idealize.ShloMosaic.PureOps

noncomputable section

namespace Cert.Total

open Idealize.ShloMosaic

variable {F : FTy → Type} [FloatOps F]

/-- The mean over the patches, as the host computes it. -/
def total (h : (⟨1, ![16384]⟩ : Shape).ReducesTo [0] ⟨0, ![]⟩) (h0 : 0 < (⟨0, ![]⟩ : Shape).numel)
    (E : FVec F ⟨1, ![16384]⟩ .f32) : FVec F ⟨0, ![]⟩ .f32 :=
  Host.divf (Host.reduceAdd E (constant ⟨0, ![]⟩ .f32 0x00000000#32) h h0) (constant ⟨0, ![]⟩ .f32 0x46800000#32)

end Cert.Total

end
-- ==== Proof.KernelValue.lean ====
/-
  The kernel's run, read: the region's output array ends holding, at patch p, the kernel's entropy of column p of the
  patch matrix (point t of the grid writes the 4096 patches 4096·t … 4096·t + 4095, and the four points cover the
  array), and the host lines after the region take the mean.
-/
import proofs.«413189_j54666343744090_3_alg».proof.Proof.Gen.KernelIdeal.Frame
import proofs.«413189_j54666343744090_3_alg».proof.Proof.KernelBody
import proofs.«413189_j54666343744090_3_alg».proof.Proof.Total
import proofs.«413189_j54666343744090_3_alg».proof.Proof.Tokens
import Idealize.ShloMosaic.Lib.Pipeline.Value
import Idealize.ShloMosaic.Lib.ValueIdx
import Idealize.ShloMosaic.Lib.StableHlo.Run

noncomputable section

set_option maxRecDepth 16384

namespace Cert.KernelIdeal.KValue

open Cert.KernelIdeal Cert.KernelIdeal.Gen Cert.Tokens
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The kernel's patch matrix: token `k` of patch `p` at `(k, p)`. -/
def patches (a : IVec S32x32x32x32 32) : IVec S64x16384 32 :=
  shapeCast S64x16384
    (transpose S4x4x4x32x8x8x8 [2, 4, 6, 0, 1, 3, 5]
      (shapeCast S32x8x4x8x4x8x4 a shapeCasts_S32x32x32x32_S32x8x4x8x4x8x4)
      transposes_S32x8x4x8x4x8x4_S4x4x4x32x8x8x8_2_4_6_0_1_3_5)
    shapeCasts_S4x4x4x32x8x8x8_S64x16384

/-- The kernel's value for patch `p`. -/
def entropyAt (a : IVec S32x32x32x32 32) (p : Fin 16384) : EReal := kernelEntropy (fun k => patches a (ix2 k p))

/-- The array of per-patch values the region leaves. -/
def entropies (a : IVec S32x32x32x32 32) : FVec Ideal S16384 .f32 := fun j => entropyAt a (j 0)

/-- The region finds the patch matrix in its input array: the three host lines before it. -/
theorem V_main_v2 (c : Dev nD) :
    (V m c main_v2 : S64x16384.Idx → BitVec 32) = patches (m ((c.tc : Thread nD τ).loc main_arg0)) := by
  show StableHlo.after hostOps0 (fun b => m (c, b)) (Proc.devRef .tc main_v2) = _
  after_results
  rfl

/-- The printed index maps over the grid: the input's block is column block `t`, the output's block `t`. -/
theorem idx_facts : ∀ t : Fin cfg0.N, win0_0.index t (0 : Fin 2) = 0 ∧ win0_0.index t (1 : Fin 2) = t.val
    ∧ win0_1.index t (0 : Fin 1) = t.val :=
  (by decide +kernel : ∀ t : Fin grid0.N, _)

/-- The body's output at any lane, over a lane index of the block's literal type. -/
theorem out_at (x0 : Vec Ideal S64x4096 .i32) (y : S4096.Idx) :
    out0_1 (F := Ideal) x0 y = kernelEntropy (fun i => x0 (ix2 i (⟨(y 0).val, (y 0).isLt⟩ : Fin 4096))) := by
  have hy : y = ix1 (⟨(y 0).val, (y 0).isLt⟩ : Fin 4096) := by funext d; match d with | ⟨0, _⟩ => rfl
  calc out0_1 (F := Ideal) x0 y = out0_1 (F := Ideal) x0 (ix1 (⟨(y 0).val, (y 0).isLt⟩ : Fin 4096)) := congrArg _ hy
    _ = _ := Body.out0_1_apply x0 _

/-- What point `t` writes back is block `t` of the per-patch values. -/
theorem flushed_eq (c : Dev nD) (t : Fin cfg0.N) :
    (dats m 0 c).flushed 1 t
      = ((cfg0.win 1).blk t).view.read (Elt Ideal) (entropies (m ((c.tc : Thread nD τ).loc main_arg0))) := by
  show (cfg0.win 1).cut (grid0.coords t) ((dats m 0 c).after 1 t) = _
  rw [after0_1]
  obtain ⟨e0, e1, e2⟩ := idx_facts t
  funext j
  show out0_1 (iblk m c 0 t) j = entropies (m ((c.tc : Thread nD τ).loc main_arg0)) (((cfg0.win 1).blk t).view.emb j)
  refine (out_at (iblk m c 0 t) j).trans ?_
  unfold entropies entropyAt
  refine congrArg kernelEntropy (funext fun i => ?_)
  show V m c main_v2 (((cfg0.win 0).blk t).view.emb (ix2 i (⟨(j 0).val, (j 0).isLt⟩ : Fin 4096))) = _
  rw [V_main_v2]
  refine congrArg (patches _) (funext fun a => Fin.ext ?_)
  match a with
  | ⟨0, _⟩ => show win0_0.index t (0 : Fin 2) * 64 + 1 * i.val = i.val; omega
  | ⟨1, _⟩ =>
    show win0_0.index t (1 : Fin 2) * 4096 + 1 * (j 0).val = win0_1.index t (0 : Fin 1) * 4096 + 1 * (j 0).val
    omega

/-- An index of the output array is in point `t`'s block iff it lies in the block's range. -/
theorem mem_blk (t : Fin cfg0.N) (i : S16384.Idx) :
    i ∈ ((cfg0.win 1).blk t).view.set ↔ ∀ a : Fin 1, win0_1.index t a * S4096.size a ≤ (i a).val
      ∧ (i a).val < win0_1.index t a * S4096.size a + S4096.size a := by
  show i ∈ ((View.whole main_v3).slice (win0_1.rect t)).set ↔ _
  rw [View.set_slice_whole, Rect.mem_set_unit]
  exact Iff.rfl

/-- The four blocks cover the array: patch `p` is written by point `p / 4096`. -/
theorem cover (i : S16384.Idx) :
    ∃ t : Fin cfg0.N, (cfg0.win 1).flush t = true ∧ i ∈ ((cfg0.win 1).blk t).view.set := by
  have hi : (i 0).val < 16384 := (i 0).isLt
  have hN : cfg0.N = 4 := N_0
  have ht : (i 0).val / 4096 < cfg0.N := by rw [hN]; omega
  refine ⟨⟨(i 0).val / 4096, ht⟩, flush0_1 _, ?_⟩
  obtain ⟨-, -, e2⟩ := idx_facts ⟨(i 0).val / 4096, ht⟩
  rw [mem_blk]
  intro a
  match a with
  | ⟨0, _⟩ =>
    show win0_1.index ⟨(i 0).val / 4096, ht⟩ (0 : Fin 1) * 4096 ≤ (i 0).val
      ∧ (i 0).val < win0_1.index ⟨(i 0).val / 4096, ht⟩ (0 : Fin 1) * 4096 + 4096
    rw [e2]
    show (i 0).val / 4096 * 4096 ≤ (i 0).val ∧ (i 0).val < (i 0).val / 4096 * 4096 + 4096
    omega

/-- The output array after the run: the per-patch values. -/
theorem final (c : Dev nD) :
    (dats m 0 c).arrAt 1 cfg0.N = entropies (m ((c.tc : Thread nD τ).loc main_arg0)) :=
  (dats m 0 c).arrAt_eq_of_cover 1 _ (fun t _ => flushed_eq m c t) cover

/-- The host lines after the region, applied to the output array: the mean. -/
theorem tail_eq (c : Dev nD) :
    Pipeline.afterTail₀ cfgs (dats m) 0 (V0 m) [hostOps1] c main_v5
      = Cert.Total.total reducesTo_S16384_S_d0 h_S_ (entropies (m ((c.tc : Thread nD τ).loc main_arg0))) := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v3)
      = entropies (m ((c.tc : Thread nD τ).loc main_arg0)) from
    (Pipeline.withArrays_arr spec0 launch0.win.arr_inj c _ _ 1).trans (final m c)]
  rfl

/-- The kernel's run: every weakly fair execution ends with the result at the mean of the per-patch values and the
    argument unchanged. -/
theorem run : θ_run defs (onTc (τ := τ) (main (F := Ideal))) ⟨m, fun _ => 0, ρ⟩ fun r => ∀ c : Dev nD,
      r.2.mem ((c.tc : Thread nD τ).loc main_v5)
        = Cert.Total.total reducesTo_S16384_S_d0 h_S_ (entropies (m ((c.tc : Thread nD τ).loc main_arg0)))
      ∧ r.2.mem ((c.tc : Thread nD τ).loc main_arg0) = m ((c.tc : Thread nD τ).loc main_arg0) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c)⟩)
    (run_main m ρ)

end Cert.KernelIdeal.KValue

end
-- ==== Proof.RefTerm.lean ====
/-
  The reference's result as one pure term of its argument, operation by operation as its host program lists them:
  `patches` (the volume cut into 16384 patches of 64 tokens, one row each) and `entropies` (the per-patch histogram
  by a scatter-add of ones, the three air columns overwritten with zero, the shares, `-Σ p log (p + ε)`).
-/
import proofs.«413189_j54666343744090_3_alg».proof.Proof.Gen.ReferenceIdeal

noncomputable section

namespace Cert.ReferenceIdeal.RefTerm

open Cert.ReferenceIdeal Cert.ReferenceIdeal.Gen Idealize.ShloMosaic

variable {F : FTy → Type} [FloatOps F]

/-- The 16384 patches as rows of 64 tokens. -/
def patches (a : IVec S32x32x32x32 32) : IVec S16384x64 32 :=
  shapeCast S16384x64
    (transpose S32x8x8x8x4x4x4 [0, 1, 3, 5, 2, 4, 6]
      (shapeCast S32x8x4x8x4x8x4 a shapeCasts_S32x32x32x32_S32x8x4x8x4x8x4)
      transposes_S32x8x4x8x4x8x4_S32x8x8x8x4x4x4_0_1_3_5_2_4_6)
    shapeCasts_S32x8x8x8x4x4x4_S16384x64

/-- The scatter indices of the histogram: per (patch, token) the pair (row, column), each read numpy-style
    (a negative value counts from the end). -/
def histIdx (P : IVec S16384x64 32) : IVec S16384x64x2 32 :=
  let v4 : IVec S16384 32 := iotaInDim S16384 32 0
  let v5 : IVec S16384x1 32 := broadcastInDim S16384x1 ![0] bcast_S16384_S16384x1_0 v4
  let v6 : IVec S16384x1 32 := broadcastInDim S16384x1 ![] bcast_S_S16384x1 (constantI S_ 32 0#32)
  let v7 : IVec S16384x1 1 := cmpi .slt v5 v6
  let v8 : IVec S16384x1 32 := broadcastInDim S16384x1 ![] bcast_S_S16384x1 (constantI S_ 32 16384#32)
  let v9 : IVec S16384x1 32 := addi v5 v8
  let v10 : IVec S16384x1 32 := select v7 v9 v5
  let v11 : IVec S16384x64 32 := broadcastInDim S16384x64 ![] bcast_S_S16384x64 (constantI S_ 32 0#32)
  let v12 : IVec S16384x64 1 := cmpi .slt P v11
  let v13 : IVec S16384x64 32 := broadcastInDim S16384x64 ![] bcast_S_S16384x64 (constantI S_ 32 3717#32)
  let v14 : IVec S16384x64 32 := addi P v13
  let v15 : IVec S16384x64 32 := select v12 v14 P
  let v16 : IVec S16384x64 32 := broadcastInDim S16384x64 ![0, 1] bcast_S16384x1_S16384x64_0_1 v10
  let v17 : IVec S16384x64x1 32 := broadcastInDim S16384x64x1 ![0, 1] bcast_S16384x64_S16384x64x1_0_1 v16
  let v18 : IVec S16384x64x1 32 := broadcastInDim S16384x64x1 ![0, 1] bcast_S16384x64_S16384x64x1_0_1 v15
  concatenate S16384x64x2 2 [⟨S16384x64x1, v17⟩, ⟨S16384x64x1, v18⟩] concatenates_S16384x64x1_S16384x64x1_S16384x64x2_d2

/-- The scatter indices of the three air columns. -/
def airIdx : IVec S3x1 32 :=
  let c : IVec S3 32 := fun i => lit0 (S3.rowMajor i)
  let v22 : IVec S3 32 := broadcastInDim S3 ![] bcast_S_S3 (constantI S_ 32 0#32)
  let v23 : IVec S3 1 := cmpi .slt c v22
  let v24 : IVec S3 32 := broadcastInDim S3 ![] bcast_S_S3 (constantI S_ 32 3717#32)
  let v25 : IVec S3 32 := addi c v24
  let v26 : IVec S3 32 := select v23 v25 c
  broadcastInDim S3x1 ![0] bcast_S3_S3x1_0 v26

/-- The histogram, [16384, 3717]: a scatter-add of ones, then the air columns set to zero. -/
def counts (P : IVec S16384x64 32) : FVec F S16384x3717 .f32 :=
  let v3 : FVec F S16384x3717 .f32 := broadcastInDim S16384x3717 ![] bcast_S_S16384x3717 (constant S_ .f32 0x00000000#32)
  let v20 : FVec F S16384x64 .f32 := broadcastInDim S16384x64 ![] bcast_S_S16384x64 (constant S_ .f32 0x3F800000#32)
  let v21 : FVec F S16384x3717 .f32 := Host.scatterAdd scatter_S16384x3717_S16384x64x2_S16384x64_n_01_01_2 v3 (histIdx P) v20
  let v28 : FVec F S16384x3 .f32 := broadcastInDim S16384x3 ![] bcast_S_S16384x3 (constant S_ .f32 0x00000000#32)
  Host.scatter scatter_S16384x3717_S3x1_S16384x3_0_1_1_1 (fun _ b => b) v21 airIdx v28

/-- From the histogram to the per-patch entropies. -/
def ofCounts (C : FVec F S16384x3717 .f32) : FVec F S16384 .f32 :=
  let v30 : FVec F S16384 .f32 := Host.reduceAdd C (constant S_ .f32 0x00000000#32) reducesTo_S16384x3717_S16384_d1 h_S_
  let v31 : FVec F S16384 .f32 := broadcastInDim S16384 ![] bcast_S_S16384 (constant S_ .f32 0x3F800000#32)
  let v32 : FVec F S16384 .f32 := maximumf v30 v31
  let v33 : FVec F S16384x1 .f32 := broadcastInDim S16384x1 ![0] bcast_S16384_S16384x1_0 v32
  let v34 : FVec F S16384x3717 .f32 := broadcastInDim S16384x3717 ![0, 1] bcast_S16384x1_S16384x3717_0_1 v33
  let v35 : FVec F S16384x3717 .f32 := Host.divf C v34
  let v36 : FVec F S16384x3717 .f32 := broadcastInDim S16384x3717 ![] bcast_S_S16384x3717 (constant S_ .f32 0x2EDBE6FF#32)
  let v37 : FVec F S16384x3717 .f32 := addf v35 v36
  let v38 : FVec F S16384x3717 .f32 := Host.log v37
  let v39 : FVec F S16384x3717 .f32 := mulf v35 v38
  let v40 : FVec F S16384 .f32 := Host.reduceAdd v39 (constant S_ .f32 0x00000000#32) reducesTo_S16384x3717_S16384_d1 h_S_
  Host.negf v40

/-- The per-patch entropies, [16384]. -/
def entropies (P : IVec S16384x64 32) : FVec F S16384 .f32 := ofCounts (counts (F := F) P)

end Cert.ReferenceIdeal.RefTerm

end
-- ==== Proof.RefRun.lean ====
/-
  The reference's run: its host program is a list of operations, so every weakly fair execution ends with the result
  buffer at the operations' composed term of the argument and the argument unchanged.
-/
import proofs.«413189_j54666343744090_3_alg».proof.Proof.Gen.ReferenceIdeal
import proofs.«413189_j54666343744090_3_alg».proof.Proof.RefTerm
import proofs.«413189_j54666343744090_3_alg».proof.Proof.Total
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host program's 60 operations, in order. -/
abbrev ops : List (HloOp τ sig (Elt F)) :=
  [ nullary main_c (fun i => lit0 (S3.rowMajor i)),
    reshape main_arg0 main_v0 rfl shapeCasts_S32x32x32x32_S32x8x4x8x4x8x4,
    unary main_v0 main_v1 ((transpose S32x8x8x8x4x4x4 [0, 1, 3, 5, 2, 4, 6] · transposes_S32x8x4x8x4x8x4_S32x8x8x8x4x4x4_0_1_3_5_2_4_6) : (⟨S32x8x4x8x4x8x4, .i32⟩ : BufTy).Contents (Elt F) → (⟨S32x8x8x8x4x4x4, .i32⟩ : BufTy).Contents (Elt F)),
    reshape main_v1 main_v2 rfl shapeCasts_S32x8x8x8x4x4x4_S16384x64,
    nullary main_cst (constant S_ .f32 0x00000000#32),
    unary main_cst main_v3 (broadcastInDim S16384x3717 ![] bcast_S_S16384x3717 : (⟨S_, .f32⟩ : BufTy).Contents (Elt F) → (⟨S16384x3717, .f32⟩ : BufTy).Contents (Elt F)),
    nullary main_v4 (iotaInDim S16384 32 0),
    unary main_v4 main_v5 (broadcastInDim S16384x1 ![0] bcast_S16384_S16384x1_0 : (⟨S16384, .i32⟩ : BufTy).Contents (Elt F) → (⟨S16384x1, .i32⟩ : BufTy).Contents (Elt F)),
    nullary main_c_0 (constantI S_ 32 0#32),
    unary main_c_0 main_v6 (broadcastInDim S16384x1 ![] bcast_S_S16384x1 : (⟨S_, .i32⟩ : BufTy).Contents (Elt F) → (⟨S16384x1, .i32⟩ : BufTy).Contents (Elt F)),
    binary main_v5 main_v6 main_v7 (cmpi .slt : (⟨S16384x1, .i32⟩ : BufTy).Contents (Elt F) → (⟨S16384x1, .i32⟩ : BufTy).Contents (Elt F) → (⟨S16384x1, .i1⟩ : BufTy).Contents (Elt F)),
    nullary main_c_1 (constantI S_ 32 16384#32),
    unary main_c_1 main_v8 (broadcastInDim S16384x1 ![] bcast_S_S16384x1 : (⟨S_, .i32⟩ : BufTy).Contents (Elt F) → (⟨S16384x1, .i32⟩ : BufTy).Contents (Elt F)),
    binary main_v5 main_v8 main_v9 (addi : (⟨S16384x1, .i32⟩ : BufTy).Contents (Elt F) → (⟨S16384x1, .i32⟩ : BufTy).Contents (Elt F) → (⟨S16384x1, .i32⟩ : BufTy).Contents (Elt F)),
    ternary main_v7 main_v9 main_v5 main_v10 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_2 (constantI S_ 32 0#32),
    unary main_c_2 main_v11 (broadcastInDim S16384x64 ![] bcast_S_S16384x64 : (⟨S_, .i32⟩ : BufTy).Contents (Elt F) → (⟨S16384x64, .i32⟩ : BufTy).Contents (Elt F)),
    binary main_v2 main_v11 main_v12 (cmpi .slt : (⟨S16384x64, .i32⟩ : BufTy).Contents (Elt F) → (⟨S16384x64, .i32⟩ : BufTy).Contents (Elt F) → (⟨S16384x64, .i1⟩ : BufTy).Contents (Elt F)),
    nullary main_c_3 (constantI S_ 32 3717#32),
    unary main_c_3 main_v13 (broadcastInDim S16384x64 ![] bcast_S_S16384x64 : (⟨S_, .i32⟩ : BufTy).Contents (Elt F) → (⟨S16384x64, .i32⟩ : BufTy).Contents (Elt F)),
    binary main_v2 main_v13 main_v14 (addi : (⟨S16384x64, .i32⟩ : BufTy).Contents (Elt F) → (⟨S16384x64, .i32⟩ : BufTy).Contents (Elt F) → (⟨S16384x64, .i32⟩ : BufTy).Contents (Elt F)),
    ternary main_v12 main_v14 main_v2 main_v15 (select : (⟨S16384x64, .i1⟩ : BufTy).Contents (Elt F) → (⟨S16384x64, .i32⟩ : BufTy).Contents (Elt F) → (⟨S16384x64, .i32⟩ : BufTy).Contents (Elt F) → (⟨S16384x64, .i32⟩ : BufTy).Contents (Elt F)),
    unary main_v10 main_v16 (broadcastInDim S16384x64 ![0, 1] bcast_S16384x1_S16384x64_0_1 : (⟨S16384x1, .i32⟩ : BufTy).Contents (Elt F) → (⟨S16384x64, .i32⟩ : BufTy).Contents (Elt F)),
    unary main_v16 main_v17 (broadcastInDim S16384x64x1 ![0, 1] bcast_S16384x64_S16384x64x1_0_1 : (⟨S16384x64, .i32⟩ : BufTy).Contents (Elt F) → (⟨S16384x64x1, .i32⟩ : BufTy).Contents (Elt F)),
    unary main_v15 main_v18 (broadcastInDim S16384x64x1 ![0, 1] bcast_S16384x64_S16384x64x1_0_1 : (⟨S16384x64, .i32⟩ : BufTy).Contents (Elt F) → (⟨S16384x64x1, .i32⟩ : BufTy).Contents (Elt F)),
    binary main_v17 main_v18 main_v19 ((fun a b => concatenate S16384x64x2 2 [⟨S16384x64x1, a⟩, ⟨S16384x64x1, b⟩] concatenates_S16384x64x1_S16384x64x1_S16384x64x2_d2) : (⟨S16384x64x1, .i32⟩ : BufTy).Contents (Elt F) → (⟨S16384x64x1, .i32⟩ : BufTy).Contents (Elt F) → (⟨S16384x64x2, .i32⟩ : BufTy).Contents (Elt F)),
    nullary main_cst_4 (constant S_ .f32 0x3F800000#32),
    unary main_cst_4 main_v20 (broadcastInDim S16384x64 ![] bcast_S_S16384x64 : (⟨S_, .f32⟩ : BufTy).Contents (Elt F) → (⟨S16384x64, .f32⟩ : BufTy).Contents (Elt F)),
    ternary main_v3 main_v19 main_v20 main_v21 ((fun x i u => Host.scatterAdd scatter_S16384x3717_S16384x64x2_S16384x64_n_01_01_2 x i u) : (⟨S16384x3717, .f32⟩ : BufTy).Contents (Elt F) → (⟨S16384x64x2, .i32⟩ : BufTy).Contents (Elt F) → (⟨S16384x64, .f32⟩ : BufTy).Contents (Elt F) → (⟨S16384x3717, .f32⟩ : BufTy).Contents (Elt F)),
    nullary main_c_5 (constantI S_ 32 0#32),
    unary main_c_5 main_v22 (broadcastInDim S3 ![] bcast_S_S3 : (⟨S_, .i32⟩ : BufTy).Contents (Elt F) → (⟨S3, .i32⟩ : BufTy).Contents (Elt F)),
    binary main_c main_v22 main_v23 (cmpi .slt : (⟨S3, .i32⟩ : BufTy).Contents (Elt F) → (⟨S3, .i32⟩ : BufTy).Contents (Elt F) → (⟨S3, .i1⟩ : BufTy).Contents (Elt F)),
    nullary main_c_6 (constantI S_ 32 3717#32),
    unary main_c_6 main_v24 (broadcastInDim S3 ![] bcast_S_S3 : (⟨S_, .i32⟩ : BufTy).Contents (Elt F) → (⟨S3, .i32⟩ : BufTy).Contents (Elt F)),
    binary main_c main_v24 main_v25 (addi : (⟨S3, .i32⟩ : BufTy).Contents (Elt F) → (⟨S3, .i32⟩ : BufTy).Contents (Elt F) → (⟨S3, .i32⟩ : BufTy).Contents (Elt F)),
    ternary main_v23 main_v25 main_c main_v26 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v26 main_v27 (broadcastInDim S3x1 ![0] bcast_S3_S3x1_0 : (⟨S3, .i32⟩ : BufTy).Contents (Elt F) → (⟨S3x1, .i32⟩ : BufTy).Contents (Elt F)),
    nullary main_cst_7 (constant S_ .f32 0x00000000#32),
    unary main_cst_7 main_v28 (broadcastInDim S16384x3 ![] bcast_S_S16384x3 : (⟨S_, .f32⟩ : BufTy).Contents (Elt F) → (⟨S16384x3, .f32⟩ : BufTy).Contents (Elt F)),
    ternary main_v21 main_v27 main_v28 main_v29 ((fun x i u => Host.scatter scatter_S16384x3717_S3x1_S16384x3_0_1_1_1 (fun _ b => b) x i u) : (⟨S16384x3717, .f32⟩ : BufTy).Contents (Elt F) → (⟨S3x1, .i32⟩ : BufTy).Contents (Elt F) → (⟨S16384x3, .f32⟩ : BufTy).Contents (Elt F) → (⟨S16384x3717, .f32⟩ : BufTy).Contents (Elt F)),
    nullary main_cst_8 (constant S_ .f32 0x00000000#32),
    binary main_v29 main_cst_8 main_v30 ((fun x v => Host.reduceAdd x v reducesTo_S16384x3717_S16384_d1 h_S_) : (⟨S16384x3717, .f32⟩ : BufTy).Contents (Elt F) → (⟨S_, .f32⟩ : BufTy).Contents (Elt F) → (⟨S16384, .f32⟩ : BufTy).Contents (Elt F)),
    nullary main_cst_9 (constant S_ .f32 0x3F800000#32),
    unary main_cst_9 main_v31 (broadcastInDim S16384 ![] bcast_S_S16384 : (⟨S_, .f32⟩ : BufTy).Contents (Elt F) → (⟨S16384, .f32⟩ : BufTy).Contents (Elt F)),
    binary main_v30 main_v31 main_v32 (maximumf : (⟨S16384, .f32⟩ : BufTy).Contents (Elt F) → (⟨S16384, .f32⟩ : BufTy).Contents (Elt F) → (⟨S16384, .f32⟩ : BufTy).Contents (Elt F)),
    unary main_v32 main_v33 (broadcastInDim S16384x1 ![0] bcast_S16384_S16384x1_0 : (⟨S16384, .f32⟩ : BufTy).Contents (Elt F) → (⟨S16384x1, .f32⟩ : BufTy).Contents (Elt F)),
    unary main_v33 main_v34 (broadcastInDim S16384x3717 ![0, 1] bcast_S16384x1_S16384x3717_0_1 : (⟨S16384x1, .f32⟩ : BufTy).Contents (Elt F) → (⟨S16384x3717, .f32⟩ : BufTy).Contents (Elt F)),
    binary main_v29 main_v34 main_v35 (Host.divf : (⟨S16384x3717, .f32⟩ : BufTy).Contents (Elt F) → (⟨S16384x3717, .f32⟩ : BufTy).Contents (Elt F) → (⟨S16384x3717, .f32⟩ : BufTy).Contents (Elt F)),
    nullary main_cst_10 (constant S_ .f32 0x2EDBE6FF#32),
    unary main_cst_10 main_v36 (broadcastInDim S16384x3717 ![] bcast_S_S16384x3717 : (⟨S_, .f32⟩ : BufTy).Contents (Elt F) → (⟨S16384x3717, .f32⟩ : BufTy).Contents (Elt F)),
    binary main_v35 main_v36 main_v37 (addf : (⟨S16384x3717, .f32⟩ : BufTy).Contents (Elt F) → (⟨S16384x3717, .f32⟩ : BufTy).Contents (Elt F) → (⟨S16384x3717, .f32⟩ : BufTy).Contents (Elt F)),
    unary main_v37 main_v38 (Host.log : (⟨S16384x3717, .f32⟩ : BufTy).Contents (Elt F) → (⟨S16384x3717, .f32⟩ : BufTy).Contents (Elt F)),
    binary main_v35 main_v38 main_v39 (mulf : (⟨S16384x3717, .f32⟩ : BufTy).Contents (Elt F) → (⟨S16384x3717, .f32⟩ : BufTy).Contents (Elt F) → (⟨S16384x3717, .f32⟩ : BufTy).Contents (Elt F)),
    nullary main_cst_11 (constant S_ .f32 0x00000000#32),
    binary main_v39 main_cst_11 main_v40 ((fun x v => Host.reduceAdd x v reducesTo_S16384x3717_S16384_d1 h_S_) : (⟨S16384x3717, .f32⟩ : BufTy).Contents (Elt F) → (⟨S_, .f32⟩ : BufTy).Contents (Elt F) → (⟨S16384, .f32⟩ : BufTy).Contents (Elt F)),
    unary main_v40 main_v41 (Host.negf : (⟨S16384, .f32⟩ : BufTy).Contents (Elt F) → (⟨S16384, .f32⟩ : BufTy).Contents (Elt F)),
    nullary main_cst_12 (constant S_ .f32 0x00000000#32),
    binary main_v41 main_cst_12 main_v42 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_13 (constant S_ .f32 0x46800000#32),
    binary main_v42 main_cst_13 main_v43 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., binary_bufs_sub .., nullary_bufs_sub .., binary_bufs_sub ..⟩

/-- Each operation's result at a reference, rewritten outermost first: at its own result reference the operation's
    function of its operands' contents, at any other reference what was there. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- No operation writes the argument: after the whole line it holds what it held. -/
theorem arg0_eq (V : Valuation τ sig (Elt F)) :
    after ops V (Proc.devRef .tc main_arg0) = V (Proc.devRef .tc main_arg0) := by
  after_results_simp

set_option maxHeartbeats 4000000 in  -- sixty operations' results, each rewritten at every reference that reads it
/-- After the whole line the result buffer holds the operations' composed term of the argument's contents: the results
    are rewritten operation by operation (first everywhere outside the concatenation's operand list, then inside it),
    and the composed term is the named one by unfolding its definitions, the two reshapes' casts being along `rfl`. -/
theorem v43_eq (V : Valuation τ sig (Elt F)) :
    after ops V (Proc.devRef .tc main_v43)
      = Cert.Total.total reducesTo_S16384_S_d0 h_S_ (RefTerm.entropies (RefTerm.patches (V (Proc.devRef .tc main_arg0)))) := by
  after_results_simp
  results_rw
  dsimp only [Cert.Total.total, RefTerm.entropies, RefTerm.ofCounts, RefTerm.counts, RefTerm.histIdx, RefTerm.airIdx, RefTerm.patches]
  rfl

/-- On the device, from any memory with zero counters: every weakly fair execution of the host program terminates with
    the result buffer at the mean of the per-patch entropies of the argument's patches, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = Cert.Total.total reducesTo_S16384_S_d0 h_S_ (RefTerm.entropies (RefTerm.patches (m ((c.tc : Thread nD τ).loc main_arg0))))
      ∧ r.2.mem ((c.tc : Thread nD τ).loc main_arg0) = m ((c.tc : Thread nD τ).loc main_arg0) :=
  (θ_run defs _ _).mono (fun _ h c => ⟨(h c main_v43).trans (v43_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's per-patch entropy read at patch `p`, when every token of the patch matrix lies in [0, 3717): the
  scatter-add of ones leaves in bin (p, v) the number of tokens of patch p equal to v, the second scatter empties the
  three air columns, and the rest is pointwise.
-/
import proofs.«413189_j54666343744090_3_alg».proof.Proof.RefTerm
import proofs.«413189_j54666343744090_3_alg».proof.Proof.Tokens
import Idealize.ShloMosaic.Lib.ValueIdx
import Idealize.ShloMosaic.Lib.Pipeline.Value
import Idealize.ShloMosaic.Lib.StableHlo.Predicate
import Idealize.ShloMosaic.PureOps.Ideal.Laws
import Idealize.ShloMosaic.Lib.IdealHost

noncomputable section

namespace Cert.ReferenceIdeal.RefValue

open Cert.ReferenceIdeal Cert.ReferenceIdeal.Gen Cert.Tokens Idealize.ShloMosaic Idealize.ShloMosaic.ValueIdx

/-! ### Broadcasts read at an index, and the index vector of the histogram's scatter -/

theorem bcast_tok {α : Type} (x : S16384x64.Idx → α) (p : Fin 16384) (k : Fin 64) :
    broadcastInDim S16384x64x1 ![0, 1] bcast_S16384x64_S16384x64x1_0_1 x (ix3 p k (0 : Fin 1)) = x (ix2 p k) := by
  refine broadcastInDim_apply _ _ x _ (ix2 p k) ?_
  intro a
  match a with
  | ⟨0, _⟩ => rfl
  | ⟨1, _⟩ => rfl

theorem bcast_rowcol {α : Type} (x : S16384x1.Idx → α) (p : Fin 16384) (k : Fin 64) :
    broadcastInDim S16384x64 ![0, 1] bcast_S16384x1_S16384x64_0_1 x (ix2 p k) = x (ix2 p (0 : Fin 1)) := by
  refine broadcastInDim_apply _ _ x _ (ix2 p (0 : Fin 1)) ?_
  intro a
  match a with
  | ⟨0, _⟩ => rfl
  | ⟨1, _⟩ => rfl

theorem bcast_col {α : Type} (x : S16384.Idx → α) (p : Fin 16384) :
    broadcastInDim S16384x1 ![0] bcast_S16384_S16384x1_0 x (ix2 p (0 : Fin 1)) = x (ix1 p) := by
  refine broadcastInDim_apply _ _ x _ (ix1 p) ?_
  intro a
  match a with
  | ⟨0, _⟩ => rfl

theorem bcast_const {α : Type} {t : Shape} (dims : Fin S_.rank → Fin t.rank) (h : S_.BroadcastsInDim t dims) (x : S_.Idx → α) (j : t.Idx) :
    broadcastInDim t dims h x j = x ix0 := by
  unfold broadcastInDim
  exact congrArg x (funext fun a => a.elim0)

/-- numpy's reading of an index that is not negative is the index itself. -/
theorem norm_nonneg (t n : BitVec 32) (h : t.toNat < 2 ^ 31) :
    Scalar.select (IntOp.cmpi .slt t 0#32) (IntOp.addi t n) t = t := by
  unfold Scalar.select
  rw [if_neg]
  intro hc
  have := (StableHlo.Predicate.slt_iff_toNat h (by decide)).1 hc
  simp at this

/-- The row component of the histogram's index vector is the patch number. -/
theorem histIdx_row (P : IVec S16384x64 32) (p : Fin 16384) (k : Fin 64) :
    RefTerm.histIdx P (ix3 p k (0 : Fin 2)) = BitVec.ofNat 32 p.val := by
  unfold RefTerm.histIdx
  simp only []
  refine (concatenate_pair_apply_left (t := S16384x64x2) (s₁ := S16384x64x1) (s₂ := S16384x64x1) (2 : Fin 3) _ _ _ (ix3 p k (0 : Fin 2)) rfl (ix3 p k (0 : Fin 1)) ?_).trans ?_
  · intro b
    match b with
    | ⟨0, _⟩ => rfl
    | ⟨1, _⟩ => rfl
    | ⟨2, _⟩ => rfl
  · rw [bcast_tok, bcast_rowcol]
    simp only [select_apply, cmpi, addi, bcast_const, constantI]
    rw [bcast_col]
    have hi : iotaInDim S16384 32 0 (ix1 p) = BitVec.ofNat 32 p.val := rfl
    rw [hi]
    refine norm_nonneg _ _ ?_
    have := p.isLt
    rw [BitVec.toNat_ofNat]
    omega

/-- The column component is the token itself when the token is not negative. -/
theorem histIdx_col (P : IVec S16384x64 32) (p : Fin 16384) (k : Fin 64) (h : (P (ix2 p k)).toNat < 3717) :
    RefTerm.histIdx P (ix3 p k (1 : Fin 2)) = P (ix2 p k) := by
  unfold RefTerm.histIdx
  simp only []
  refine (concatenate_pair_apply_right (t := S16384x64x2) (s₁ := S16384x64x1) (s₂ := S16384x64x1) (2 : Fin 3) _ _ _ (ix3 p k (1 : Fin 2)) rfl rfl (ix3 p k (0 : Fin 1)) ?_ ?_).trans ?_
  · intro b hb
    match b with
    | ⟨0, _⟩ => rfl
    | ⟨1, _⟩ => rfl
    | ⟨2, _⟩ => exact absurd rfl hb
  · rfl
  · rw [bcast_tok]
    simp only [select_apply, cmpi, addi, bcast_const, constantI]
    exact norm_nonneg _ _ (by omega)

abbrev dH := scatter_S16384x3717_S16384x64x2_S16384x64_n_01_01_2
abbrev dA := scatter_S16384x3717_S3x1_S16384x3_0_1_1_1

theorem siIdx_hist0 (p : Fin 16384) (k : Fin 64) :
    dH.siIdx (ix2 p k) ⟨0, by decide⟩ = ix3 p k (0 : Fin 2) := by
  funext b
  match b with
  | ⟨0, _⟩ => rfl
  | ⟨1, _⟩ => rfl
  | ⟨2, _⟩ => rfl

theorem siIdx_hist1 (p : Fin 16384) (k : Fin 64) :
    dH.siIdx (ix2 p k) ⟨1, by decide⟩ = ix3 p k (1 : Fin 2) := by
  funext b
  match b with
  | ⟨0, _⟩ => rfl
  | ⟨1, _⟩ => rfl
  | ⟨2, _⟩ => rfl

theorem start_hist0 {w : Nat} (idx : IVec S16384x64x2 w) (p : Fin 16384) (k : Fin 64) :
    dH.start (ix2 p k) idx (0 : Fin 2) = (idx (ix3 p k (0 : Fin 2))).toInt := by
  unfold ScatterDims.start
  rw [dif_pos (by decide)]
  exact congrArg (fun i => (idx i).toInt) (siIdx_hist0 p k)

theorem start_hist1 {w : Nat} (idx : IVec S16384x64x2 w) (p : Fin 16384) (k : Fin 64) :
    dH.start (ix2 p k) idx (1 : Fin 2) = (idx (ix3 p k (1 : Fin 2))).toInt := by
  unfold ScatterDims.start
  rw [dif_pos (by decide)]
  exact congrArg (fun i => (idx i).toInt) (siIdx_hist1 p k)

theorem window_hist (j : S16384x64.Idx) (a : Fin S16384x3717.rank) : dH.window j a = 0 := by
  unfold ScatterDims.window
  have : a ∉ dH.sKept := by revert a; decide
  rw [dif_neg this]

theorem sw_hist0 (P : IVec S16384x64 32) (p : Fin 16384) (k : Fin 64) :
    dH.start (ix2 p k) (RefTerm.histIdx P) (0 : Fin 2) + dH.window (ix2 p k) (0 : Fin 2) = (p.val : Int) := by
  rw [start_hist0, window_hist, histIdx_row, StableHlo.Predicate.toInt_ofNat_small _ (by have := p.isLt; omega)]
  simp

theorem sw_hist1 (P : IVec S16384x64 32) (p : Fin 16384) (k : Fin 64) (h : (P (ix2 p k)).toNat < 3717) :
    dH.start (ix2 p k) (RefTerm.histIdx P) (1 : Fin 2) + dH.window (ix2 p k) (1 : Fin 2) = ((P (ix2 p k)).toNat : Int) := by
  rw [start_hist1, window_hist, histIdx_col P p k h, StableHlo.Predicate.toInt_eq_toNat_of_lt (by omega)]
  simp

/-- Where update (p, k) of the histogram's scatter lands: row p, column the token's value. -/
theorem resultIdx?_hist (P : IVec S16384x64 32) (hP : ∀ (p : Fin 16384) (k : Fin 64), (P (ix2 p k)).toNat < 3717)
    (p : Fin 16384) (k : Fin 64) :
    dH.resultIdx? (ix2 p k) (RefTerm.histIdx P) = some (ix2 p ⟨(P (ix2 p k)).toNat, hP p k⟩) := by
  unfold ScatterDims.resultIdx?
  have h0 := sw_hist0 P p k
  have h1 := sw_hist1 P p k (hP p k)
  have hb : ∀ a : Fin S16384x3717.rank, 0 ≤ dH.start (ix2 p k) (RefTerm.histIdx P) a + dH.window (ix2 p k) a ∧
      dH.start (ix2 p k) (RefTerm.histIdx P) a + dH.window (ix2 p k) a < S16384x3717.size a := by
    intro a
    match a with
    | ⟨0, _⟩ =>
      show 0 ≤ dH.start (ix2 p k) (RefTerm.histIdx P) (0 : Fin 2) + dH.window (ix2 p k) (0 : Fin 2) ∧
        dH.start (ix2 p k) (RefTerm.histIdx P) (0 : Fin 2) + dH.window (ix2 p k) (0 : Fin 2) < ((16384 : ℕ) : Int)
      rw [h0]; have := p.isLt; omega
    | ⟨1, _⟩ =>
      show 0 ≤ dH.start (ix2 p k) (RefTerm.histIdx P) (1 : Fin 2) + dH.window (ix2 p k) (1 : Fin 2) ∧
        dH.start (ix2 p k) (RefTerm.histIdx P) (1 : Fin 2) + dH.window (ix2 p k) (1 : Fin 2) < ((3717 : ℕ) : Int)
      rw [h1]; have := hP p k; omega
  rw [dif_pos hb]
  refine congrArg some (funext fun a => ?_)
  match a with
  | ⟨0, _⟩ =>
    apply Fin.ext
    show (dH.start (ix2 p k) (RefTerm.histIdx P) (0 : Fin 2) + dH.window (ix2 p k) (0 : Fin 2)).toNat = p.val
    rw [h0]; simp
  | ⟨1, _⟩ =>
    apply Fin.ext
    show (dH.start (ix2 p k) (RefTerm.histIdx P) (1 : Fin 2) + dH.window (ix2 p k) (1 : Fin 2)).toNat = (P (ix2 p k)).toNat
    rw [h1]; simp

/-! ### The scatter-add of ones counts the tokens -/

theorem ix2_inj {n0 n1 : Nat} {a a' : Fin n0} {b b' : Fin n1} (h : ix2 a b = ix2 a' b') : a = a' ∧ b = b' :=
  ⟨congrFun h (0 : Fin 2), congrFun h (1 : Fin 2)⟩

theorem resultIdx?_hist_iff (P : IVec S16384x64 32) (hP : ∀ (p : Fin 16384) (k : Fin 64), (P (ix2 p k)).toNat < 3717)
    (p' : Fin 16384) (k : Fin 64) (p : Fin 16384) (v : Fin 3717) :
    dH.resultIdx? (ix2 p' k) (RefTerm.histIdx P) = some (ix2 p v) ↔ p' = p ∧ P (ix2 p' k) = BitVec.ofNat 32 v.val := by
  rw [resultIdx?_hist P hP, Option.some.injEq]
  have hv := v.isLt
  constructor
  · intro h
    obtain ⟨h1, h2⟩ := ix2_inj h
    refine ⟨h1, BitVec.eq_of_toNat_eq ?_⟩
    have h3 : (P (ix2 p' k)).toNat = v.val := congrArg Fin.val h2
    rw [h3, BitVec.toNat_ofNat]
    omega
  · rintro ⟨rfl, h2⟩
    have h3 : (P (ix2 p' k)).toNat = v.val := by
      rw [h2, BitVec.toNat_ofNat]; omega
    exact congrArg (ix2 p') (Fin.ext h3)

/-- The scatter-add of ones at (p, v): the operand there plus the number of tokens of patch p equal to v. -/
theorem scatterAdd_hist (P : IVec S16384x64 32) (hP : ∀ (p : Fin 16384) (k : Fin 64), (P (ix2 p k)).toNat < 3717)
    (x : S16384x3717.Idx → EReal) (upd : S16384x64.Idx → EReal) (hu : ∀ j, upd j = 1) (p : Fin 16384) (v : Fin 3717) :
    Ideal.hostScatterAdd dH x (RefTerm.histIdx P) upd (ix2 p v)
      = x (ix2 p v) + ((mult (fun k => P (ix2 p k)) (BitVec.ofNat 32 v.val) : ℝ) : EReal) := by
  unfold Ideal.hostScatterAdd
  refine congrArg (x (ix2 p v) + ·) ?_
  rw [Finset.sum_congr rfl (fun j _ => hu j), Finset.sum_const, nsmul_one, ← EReal.coe_natCast]
  refine congrArg (fun n : ℕ => ((n : ℝ) : EReal)) ?_
  unfold mult
  symm
  refine Finset.card_bij (fun k _ => ix2 p k) ?_ ?_ ?_
  · intro k hk
    rw [Finset.mem_filter] at hk ⊢
    exact ⟨Finset.mem_univ _, (resultIdx?_hist_iff P hP p k p v).2 ⟨rfl, hk.2⟩⟩
  · intro k _ k' _ h
    exact (ix2_inj h).2
  · intro j hj
    obtain ⟨a, b, rfl⟩ : ∃ (a : Fin 16384) (b : Fin 64), j = ix2 a b := ⟨j 0, j 1, eq_ix2 j⟩
    rw [Finset.mem_filter] at hj
    obtain ⟨rfl, h2⟩ := (resultIdx?_hist_iff P hP a b p v).1 hj.2
    exact ⟨b, Finset.mem_filter.2 ⟨Finset.mem_univ _, h2⟩, rfl⟩

/-! ### An overwriting fold -/

theorem foldl_miss {ι κ α : Type} (step : (ι → α) → κ → (ι → α)) (g : κ → Option ι) (i' : ι)
    (hs : ∀ r n, g n ≠ some i' → step r n i' = r i') (L : List κ) (x : ι → α) (h : ∀ n ∈ L, g n ≠ some i') :
    L.foldl step x i' = x i' := by
  induction L generalizing x with
  | nil => rfl
  | cons n L ih =>
    rw [List.foldl_cons, ih _ (fun m hm => h m (List.mem_cons_of_mem _ hm)), hs _ _ (h n List.mem_cons_self)]

theorem foldl_hit {ι κ α : Type} (step : (ι → α) → κ → (ι → α)) (g : κ → Option ι) (i' : ι) (c : α)
    (hs : ∀ r n, g n ≠ some i' → step r n i' = r i') (hc : ∀ r n, g n = some i' → step r n i' = c)
    (L : List κ) (x : ι → α) (h : ∃ n ∈ L, g n = some i') : L.foldl step x i' = c := by
  induction L generalizing x with
  | nil => obtain ⟨n, hn, _⟩ := h; cases hn
  | cons n L ih =>
    rw [List.foldl_cons]
    by_cases hL : ∃ m ∈ L, g m = some i'
    · exact ih _ hL
    · have hn : g n = some i' := by
        obtain ⟨m, hm, hg⟩ := h
        rcases List.mem_cons.1 hm with rfl | hm'
        · exact hg
        · exact absurd ⟨m, hm', hg⟩ hL
      rw [foldl_miss step g i' hs L _ (fun m hm hg => hL ⟨m, hm, hg⟩), hc _ _ hn]

/-- An element no update lands on keeps the operand's value. -/
theorem scatter_miss {α : Type} {s si u : Shape} {w : Nat} (d : ScatterDims s si u) (f : α → α → α) (x : s.Idx → α)
    (idx : IVec si w) (upd : u.Idx → α) (i' : s.Idx) (h : ∀ j : u.Idx, d.resultIdx? j idx ≠ some i') :
    Host.scatter d f x idx upd i' = x i' := by
  unfold Host.scatter
  refine foldl_miss _ (fun n => d.resultIdx? (u.rowMajor.symm n) idx) i' ?_ _ x (fun n _ => h _)
  intro r n hn
  generalize d.resultIdx? (u.rowMajor.symm n) idx = o at hn ⊢
  cases o with
  | none => rfl
  | some i =>
    show (if i' = i then _ else r i') = r i'
    rw [if_neg]; rintro rfl; exact hn rfl

/-- An element some update lands on holds the updates' common value when the body returns the update. -/
theorem scatter_hit {α : Type} {s si u : Shape} {w : Nat} (d : ScatterDims s si u) (x : s.Idx → α)
    (idx : IVec si w) (upd : u.Idx → α) (c : α) (hu : ∀ j, upd j = c) (i' : s.Idx) (h : ∃ j : u.Idx, d.resultIdx? j idx = some i') :
    Host.scatter d (fun _ b => b) x idx upd i' = c := by
  unfold Host.scatter
  refine foldl_hit _ (fun n => d.resultIdx? (u.rowMajor.symm n) idx) i' c ?_ ?_ _ x ?_
  · intro r n hn
    generalize d.resultIdx? (u.rowMajor.symm n) idx = o at hn ⊢
    cases o with
    | none => rfl
    | some i =>
      show (if i' = i then _ else r i') = r i'
      rw [if_neg]; rintro rfl; exact hn rfl
  · intro r n hn
    generalize d.resultIdx? (u.rowMajor.symm n) idx = o at hn ⊢
    cases o with
    | none => cases hn
    | some i =>
      have hi : i' = i := (Option.some.inj hn).symm
      show (if i' = i then upd (u.rowMajor.symm n) else r i') = c
      rw [if_pos hi]; exact hu _
  · obtain ⟨j, hj⟩ := h
    exact ⟨u.rowMajor j, List.mem_finRange _, by rw [Equiv.symm_apply_apply]; exact hj⟩

/-! ### The air columns -/

theorem bcast_air {α : Type} (x : S3.Idx → α) (a : Fin 3) :
    broadcastInDim S3x1 ![0] bcast_S3_S3x1_0 x (ix2 a (0 : Fin 1)) = x (ix1 a) := by
  refine broadcastInDim_apply _ _ x _ (ix1 a) ?_
  intro b
  match b with
  | ⟨0, _⟩ => rfl

theorem lit0_lt (a : Fin 3) : (lit0 a).toNat < 3717 := by
  match a with
  | ⟨0, _⟩ => show (102#32 : BitVec 32).toNat < 3717; decide
  | ⟨1, _⟩ => show (576#32 : BitVec 32).toNat < 3717; decide
  | ⟨2, _⟩ => show (3352#32 : BitVec 32).toNat < 3717; decide

theorem airIdx_apply (a : Fin 3) : RefTerm.airIdx (ix2 a (0 : Fin 1)) = lit0 a := by
  unfold RefTerm.airIdx
  simp only []
  rw [bcast_air]
  simp only [select_apply, cmpi, addi, bcast_const, constantI]
  have hr : S3.rowMajor (ix1 a) = a := Fin.ext (Shape.rowMajor_val_one _)
  rw [hr]
  exact norm_nonneg _ _ (by have := lit0_lt a; omega)

theorem siIdx_air (p : Fin 16384) (a : Fin 3) : dA.siIdx (ix2 p a) ⟨0, by decide⟩ = ix2 a (0 : Fin 1) := by
  funext b
  match b with
  | ⟨0, _⟩ => rfl
  | ⟨1, _⟩ => rfl

theorem start_air0 {w : Nat} (idx : IVec S3x1 w) (p : Fin 16384) (a : Fin 3) : dA.start (ix2 p a) idx (0 : Fin 2) = 0 := by
  unfold ScatterDims.start
  rw [dif_neg (by decide)]

theorem start_air1 {w : Nat} (idx : IVec S3x1 w) (p : Fin 16384) (a : Fin 3) :
    dA.start (ix2 p a) idx (1 : Fin 2) = (idx (ix2 a (0 : Fin 1))).toInt := by
  unfold ScatterDims.start
  rw [dif_pos (by decide)]
  exact congrArg (fun i => (idx i).toInt) (siIdx_air p a)

theorem window_air0 (p : Fin 16384) (a : Fin 3) : dA.window (ix2 p a) (0 : Fin 2) = p.val := by
  unfold ScatterDims.window
  rw [dif_pos (by decide)]
  rfl

theorem window_air1 (p : Fin 16384) (a : Fin 3) : dA.window (ix2 p a) (1 : Fin 2) = 0 := by
  unfold ScatterDims.window
  rw [dif_neg (by decide)]

theorem sw_air0 (p : Fin 16384) (a : Fin 3) :
    dA.start (ix2 p a) RefTerm.airIdx (0 : Fin 2) + dA.window (ix2 p a) (0 : Fin 2) = (p.val : Int) := by
  rw [start_air0, window_air0]; simp

theorem sw_air1 (p : Fin 16384) (a : Fin 3) :
    dA.start (ix2 p a) RefTerm.airIdx (1 : Fin 2) + dA.window (ix2 p a) (1 : Fin 2) = ((lit0 a).toNat : Int) := by
  rw [start_air1, window_air1, airIdx_apply, StableHlo.Predicate.toInt_eq_toNat_of_lt (by have := lit0_lt a; omega)]
  simp

/-- Where update (p, a) of the second scatter lands: row p, the a-th air column. -/
theorem resultIdx?_air (p : Fin 16384) (a : Fin 3) :
    dA.resultIdx? (ix2 p a) RefTerm.airIdx = some (ix2 p ⟨(lit0 a).toNat, lit0_lt a⟩) := by
  unfold ScatterDims.resultIdx?
  have h0 := sw_air0 p a
  have h1 := sw_air1 p a
  have hb : ∀ c : Fin S16384x3717.rank, 0 ≤ dA.start (ix2 p a) RefTerm.airIdx c + dA.window (ix2 p a) c ∧
      dA.start (ix2 p a) RefTerm.airIdx c + dA.window (ix2 p a) c < S16384x3717.size c := by
    intro c
    match c with
    | ⟨0, _⟩ =>
      show 0 ≤ dA.start (ix2 p a) RefTerm.airIdx (0 : Fin 2) + dA.window (ix2 p a) (0 : Fin 2) ∧
        dA.start (ix2 p a) RefTerm.airIdx (0 : Fin 2) + dA.window (ix2 p a) (0 : Fin 2) < ((16384 : ℕ) : Int)
      rw [h0]; have := p.isLt; omega
    | ⟨1, _⟩ =>
      show 0 ≤ dA.start (ix2 p a) RefTerm.airIdx (1 : Fin 2) + dA.window (ix2 p a) (1 : Fin 2) ∧
        dA.start (ix2 p a) RefTerm.airIdx (1 : Fin 2) + dA.window (ix2 p a) (1 : Fin 2) < ((3717 : ℕ) : Int)
      rw [h1]; have := lit0_lt a; omega
  rw [dif_pos hb]
  refine congrArg some (funext fun c => ?_)
  match c with
  | ⟨0, _⟩ =>
    apply Fin.ext
    show (dA.start (ix2 p a) RefTerm.airIdx (0 : Fin 2) + dA.window (ix2 p a) (0 : Fin 2)).toNat = p.val
    rw [h0]; simp
  | ⟨1, _⟩ =>
    apply Fin.ext
    show (dA.start (ix2 p a) RefTerm.airIdx (1 : Fin 2) + dA.window (ix2 p a) (1 : Fin 2)).toNat = (lit0 a).toNat
    rw [h1]; simp

/-- Some update of the second scatter lands on (p, v) exactly when v is an air value. -/
theorem air_hit_iff (p : Fin 16384) (v : Fin 3717) :
    (∃ j : S16384x3.Idx, dA.resultIdx? j RefTerm.airIdx = some (ix2 p v)) ↔ isAir (BitVec.ofNat 32 v.val) := by
  have hv := v.isLt
  constructor
  · rintro ⟨j, hj⟩
    obtain ⟨p', a, rfl⟩ : ∃ (p' : Fin 16384) (a : Fin 3), j = ix2 p' a := ⟨j 0, j 1, eq_ix2 j⟩
    rw [resultIdx?_air, Option.some.injEq] at hj
    have h3 : (lit0 a).toNat = v.val := congrArg Fin.val (ix2_inj hj).2
    have h4 : BitVec.ofNat 32 v.val = lit0 a := BitVec.eq_of_toNat_eq (by rw [BitVec.toNat_ofNat, ← h3]; omega)
    rw [h4]
    match a with
    | ⟨0, _⟩ => exact Or.inl rfl
    | ⟨1, _⟩ => exact Or.inr (Or.inl rfl)
    | ⟨2, _⟩ => exact Or.inr (Or.inr rfl)
  · intro h
    have hmk : ∀ a : Fin 3, (lit0 a).toNat = v.val → ∃ j : S16384x3.Idx, dA.resultIdx? j RefTerm.airIdx = some (ix2 p v) := by
      intro a ha
      exact ⟨ix2 p a, by rw [resultIdx?_air]; exact congrArg some (congrArg (ix2 p) (Fin.ext ha))⟩
    rcases h with h | h | h
    · refine hmk ⟨0, by decide⟩ ?_
      have := congrArg BitVec.toNat h
      rw [BitVec.toNat_ofNat, show (102#32 : BitVec 32).toNat = 102 from rfl] at this
      show 102 = v.val
      omega
    · refine hmk ⟨1, by decide⟩ ?_
      have := congrArg BitVec.toNat h
      rw [BitVec.toNat_ofNat, show (576#32 : BitVec 32).toNat = 576 from rfl] at this
      show 576 = v.val
      omega
    · refine hmk ⟨2, by decide⟩ ?_
      have := congrArg BitVec.toNat h
      rw [BitVec.toNat_ofNat, show (3352#32 : BitVec 32).toNat = 3352 from rfl] at this
      show 3352 = v.val
      omega

/-- The histogram at (p, v): the patch's bin v. -/
theorem counts_apply (P : IVec S16384x64 32) (hP : ∀ (p : Fin 16384) (k : Fin 64), (P (ix2 p k)).toNat < 3717)
    (p : Fin 16384) (v : Fin 3717) :
    RefTerm.counts (F := Ideal) P (ix2 p v) = bin (fun k => P (ix2 p k)) v := by
  unfold RefTerm.counts bin
  simp only []
  by_cases hair : isAir (BitVec.ofNat 32 v.val)
  · rw [if_pos hair]
    refine scatter_hit dA _ _ _ 0 ?_ _ ((air_hit_iff p v).2 hair)
    intro j
    rw [bcast_const]
    exact Ideal.ofBits_zero_f32
  · rw [if_neg hair]
    rw [scatter_miss dA _ _ _ _ _ (fun j hj => hair ((air_hit_iff p v).1 ⟨j, hj⟩))]
    show Ideal.hostScatterAdd dH _ _ _ (ix2 p v) = _
    rw [scatterAdd_hist P hP _ _ (fun j => by rw [bcast_const]; exact Ideal.ofBits_one_f32)]
    rw [bcast_const]
    show Ideal.ofBits .f32 0x00000000#32 + _ = _
    rw [Ideal.ofBits_zero_f32, zero_add]

/-! ### From the histogram to the entropy -/

theorem bcast_tot {α : Type} (x : S16384x1.Idx → α) (p : Fin 16384) (v : Fin 3717) :
    broadcastInDim S16384x3717 ![0, 1] bcast_S16384x1_S16384x3717_0_1 x (ix2 p v) = x (ix2 p (0 : Fin 1)) := by
  refine broadcastInDim_apply _ _ x _ (ix2 p (0 : Fin 1)) ?_
  intro a
  match a with
  | ⟨0, _⟩ => rfl
  | ⟨1, _⟩ => rfl

theorem hostLog_apply {s : Shape} {φ : FTy} (x : FVec Ideal s φ) (i : s.Idx) : Host.log x i = Ideal.log (x i) := rfl

/-- The host's sum over the columns, from zero: the row's sum. -/
theorem rowSum (X : FVec Ideal S16384x3717 .f32) (p : Fin 16384) :
    Host.reduceAdd X (constant (F := Ideal) S_ .f32 0x00000000#32) reducesTo_S16384x3717_S16384_d1 h_S_ (ix1 p)
      = ∑ v : Fin 3717, X (ix2 p v) := by
  have hR : S16384x3717.Reduces [1] S16384 := by decide
  rw [hostReduceAdd_apply, Ideal.hostReduceAdd_single _ hR]
  show Ideal.ofBits .f32 0x00000000#32 + _ = _
  rw [Ideal.ofBits_zero_f32, zero_add]
  refine Finset.sum_congr rfl fun v _ => congrArg X ?_
  funext c
  match c with
  | ⟨0, _⟩ => rfl
  | ⟨1, _⟩ => rfl

theorem ofCounts_apply (C : FVec Ideal S16384x3717 .f32) (p : Fin 16384) :
    RefTerm.ofCounts (F := Ideal) C (ix1 p)
      = -(∑ v : Fin 3717, plogp (C (ix2 p v)) (∑ v' : Fin 3717, C (ix2 p v'))) := by
  unfold RefTerm.ofCounts
  simp only []
  show -(Host.reduceAdd _ (constant (F := Ideal) S_ .f32 0x00000000#32) reducesTo_S16384x3717_S16384_d1 h_S_ (ix1 p)) = _
  rw [rowSum]
  refine congrArg Neg.neg (Finset.sum_congr rfl fun v _ => ?_)
  unfold plogp ε
  rw [mulf_apply, hostLog_apply, addf_apply, hostDivf_apply, bcast_tot, bcast_col, maximumf_apply, rowSum,
    bcast_const, bcast_const, constant_apply, constant_apply, Ideal.ofBits_one_f32]

theorem entropies_apply (P : IVec S16384x64 32) (hP : ∀ (p : Fin 16384) (k : Fin 64), (P (ix2 p k)).toNat < 3717) (p : Fin 16384) :
    RefTerm.entropies (F := Ideal) P (ix1 p) = refEntropy (fun k => P (ix2 p k)) := by
  unfold RefTerm.entropies refEntropy
  rw [ofCounts_apply]
  simp only [counts_apply P hP]

end Cert.ReferenceIdeal.RefValue

end
-- ==== Proof.PatchLayout.lean ====
/-
  The two ways the programs cut the [32, 32, 32, 32] volume into 16384 patches of 64 tokens — the kernel's a
  [64, 16384] matrix (token, patch), the reference's a [16384, 64] matrix (patch, token) — read the same voxel:
  patch p = (b, d', h', w') with 8 blocks of 4 along each of the three space axes, token k = (δd, δh, δw) inside the block.
-/
import Idealize.ShloMosaic.Lib.Pipeline.Value
import Idealize.ShloMosaic.Lib.ValueIdx

noncomputable section

namespace Cert.PatchLayout

open Idealize.ShloMosaic Idealize.ShloMosaic.ValueIdx

abbrev SVol : Shape := ⟨4, ![32, 32, 32, 32]⟩
abbrev SCut : Shape := ⟨7, ![32, 8, 4, 8, 4, 8, 4]⟩
abbrev SKer : Shape := ⟨7, ![4, 4, 4, 32, 8, 8, 8]⟩
abbrev SRef : Shape := ⟨7, ![32, 8, 8, 8, 4, 4, 4]⟩

/-- The voxel that is token `k` of patch `p`. -/
def voxel (p : Fin 16384) (k : Fin 64) : SVol.Idx :=
  ix4 (⟨p.val / 512, by omega⟩ : Fin 32) (⟨p.val / 64 % 8 * 4 + k.val / 16, by omega⟩ : Fin 32)
    (⟨p.val / 8 % 8 * 4 + k.val / 4 % 4, by omega⟩ : Fin 32) (⟨p.val % 8 * 4 + k.val % 4, by omega⟩ : Fin 32)

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun x => match x with | ⟨0, _⟩ => a | ⟨1, _⟩ => b | ⟨2, _⟩ => c | ⟨3, _⟩ => d | ⟨4, _⟩ => e | ⟨5, _⟩ => f | ⟨6, _⟩ => g

/-- A row-major position at rank 7 as one sum of products. -/
theorem rowMajor_val_seven {d : Fin 7 → Nat} (i : (⟨7, d⟩ : Shape).Idx) :
    ((⟨7, d⟩ : Shape).rowMajor i).val
      = (((((((i 0).val * d 1 + (i 1).val) * d 2 + (i 2).val) * d 3 + (i 3).val) * d 4 + (i 4).val) * d 5 + (i 5).val) * d 6
          + (i 6).val) := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The cut volume's index of token `k` of patch `p`: (b, d', δd, h', δh, w', δw). -/
abbrev cutIdx (p : Fin 16384) (k : Fin 64) : SCut.Idx :=
  ix7 (⟨p.val / 512, by omega⟩ : Fin 32) (⟨p.val / 64 % 8, by omega⟩ : Fin 8) (⟨k.val / 16, by omega⟩ : Fin 4)
    (⟨p.val / 8 % 8, by omega⟩ : Fin 8) (⟨k.val / 4 % 4, by omega⟩ : Fin 4) (⟨p.val % 8, by omega⟩ : Fin 8)
    (⟨k.val % 4, by omega⟩ : Fin 4)

/-- The cut volume at that index is the volume at the voxel: the two row-major positions agree. -/
theorem cut_voxel {α : Type} (a : SVol.Idx → α) (h1 : SVol.ShapeCasts SCut) (p : Fin 16384) (k : Fin 64) :
    shapeCast SCut a h1 (cutIdx p k) = a (voxel p k) := by
  refine shapeCast_apply a h1 (cutIdx p k) (voxel p k) ?_
  rw [Shape.rowMajor_val_four, rowMajor_val_seven]
  have hp := p.isLt
  have hk := k.isLt
  show (((p.val / 512 * 32 + (p.val / 64 % 8 * 4 + k.val / 16)) * 32 + (p.val / 8 % 8 * 4 + k.val / 4 % 4)) * 32
      + (p.val % 8 * 4 + k.val % 4))
    = ((((((p.val / 512 * 8 + p.val / 64 % 8) * 4 + k.val / 16) * 8 + p.val / 8 % 8) * 4 + k.val / 4 % 4) * 8 + p.val % 8) * 4
      + k.val % 4)
  omega

theorem kernel_patches {α : Type} (a : SVol.Idx → α) (h1 : SVol.ShapeCasts SCut) (h2 : SCut.Transposes [2, 4, 6, 0, 1, 3, 5] SKer)
    (h3 : SKer.ShapeCasts ⟨2, ![64, 16384]⟩) (k : Fin 64) (p : Fin 16384) :
    shapeCast ⟨2, ![64, 16384]⟩ (transpose SKer [2, 4, 6, 0, 1, 3, 5] (shapeCast SCut a h1) h2) h3 (ix2 k p) = a (voxel p k) := by
  have hp := p.isLt
  have hk := k.isLt
  -- the kernel's rank-7 index: (δd, δh, δw, b, d', h', w')
  let k7 : SKer.Idx :=
    ix7 (⟨k.val / 16, by omega⟩ : Fin 4) (⟨k.val / 4 % 4, by omega⟩ : Fin 4) (⟨k.val % 4, by omega⟩ : Fin 4)
      (⟨p.val / 512, by omega⟩ : Fin 32) (⟨p.val / 64 % 8, by omega⟩ : Fin 8) (⟨p.val / 8 % 8, by omega⟩ : Fin 8)
      (⟨p.val % 8, by omega⟩ : Fin 8)
  refine (shapeCast_apply _ h3 (ix2 k p) k7 ?_).trans ?_
  · rw [Shape.rowMajor_val_two, rowMajor_val_seven]
    show ((((((k.val / 16 * 4 + k.val / 4 % 4) * 4 + k.val % 4) * 32 + p.val / 512) * 8 + p.val / 64 % 8) * 8 + p.val / 8 % 8) * 8
        + p.val % 8) = k.val * 16384 + p.val
    omega
  refine (transpose_apply _ _ h2 k7 (cutIdx p k) ?_).trans (cut_voxel a h1 p k)
  intro b
  match b with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem ref_patches {α : Type} (a : SVol.Idx → α) (h1 : SVol.ShapeCasts SCut) (h2 : SCut.Transposes [0, 1, 3, 5, 2, 4, 6] SRef)
    (h3 : SRef.ShapeCasts ⟨2, ![16384, 64]⟩) (p : Fin 16384) (k : Fin 64) :
    shapeCast ⟨2, ![16384, 64]⟩ (transpose SRef [0, 1, 3, 5, 2, 4, 6] (shapeCast SCut a h1) h2) h3 (ix2 p k) = a (voxel p k) := by
  have hp := p.isLt
  have hk := k.isLt
  -- the reference's rank-7 index: (b, d', h', w', δd, δh, δw)
  let r7 : SRef.Idx :=
    ix7 (⟨p.val / 512, by omega⟩ : Fin 32) (⟨p.val / 64 % 8, by omega⟩ : Fin 8) (⟨p.val / 8 % 8, by omega⟩ : Fin 8)
      (⟨p.val % 8, by omega⟩ : Fin 8) (⟨k.val / 16, by omega⟩ : Fin 4) (⟨k.val / 4 % 4, by omega⟩ : Fin 4)
      (⟨k.val % 4, by omega⟩ : Fin 4)
  refine (shapeCast_apply _ h3 (ix2 p k) r7 ?_).trans ?_
  · rw [Shape.rowMajor_val_two, rowMajor_val_seven]
    show ((((((p.val / 512 * 8 + p.val / 64 % 8) * 8 + p.val / 8 % 8) * 8 + p.val % 8) * 4 + k.val / 16) * 4 + k.val / 4 % 4) * 4
        + k.val % 4) = p.val * 64 + k.val
    omega
  refine (transpose_apply _ _ h2 r7 (cutIdx p k) ?_).trans (cut_voxel a h1 p k)
  intro b
  match b with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

end Cert.PatchLayout

end
-- ==== Proof.EntropyMath.lean ====
/-
  The kernel's and the reference's value for one patch agree when every token lies in [0, 3717): grouping the live
  tokens by value, a value held by n tokens contributes n copies of a term divided by n; a bin no live token falls in
  contributes 0 · log ε = 0; and the histogram's total is the number of live tokens.
-/
import proofs.«413189_j54666343744090_3_alg».proof.Proof.Tokens
import Mathlib.Algebra.BigOperators.Group.Finset.Basic
import Mathlib.Data.EReal.Operations
import Mathlib.Analysis.SpecialFunctions.Log.Basic

noncomputable section

namespace Cert.Tokens

open Idealize.ShloMosaic

/-! ### Reals inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `max`. -/
theorem coe_max (x y : ℝ) : ((max x y : ℝ) : EReal) = max (x : EReal) (y : EReal) :=
  EReal.coe_strictMono.monotone.map_max

/-- The small constant is a positive real: the pattern has sign 0, exponent 93 and fraction 6022911, so it
    denotes `(2^23 + 6022911) · 2^(93 - 127 - 23)`. -/
theorem eps_real : ∃ e : ℝ, 0 < e ∧ ε = (e : EReal) := by
  refine ⟨(14411519 : ℝ) * (2 : ℝ) ^ (-57 : ℤ), by positivity, ?_⟩
  simp [ε, Ideal.ofBits, Ideal.ieee, -EReal.coe_mul]

/-- `p · log (p + e)` at the share `p = n · (1 / T)`, over the reals. -/
def fR (T e n : ℝ) : ℝ := n * (1 / T) * Real.log (n * (1 / T) + e)

theorem fR_zero (T e : ℝ) : fR T e 0 = 0 := by simp [fR]

/-- At a real count `n ≥ 0` and a real total, `plogp` is the real `fR`: the share is a nonnegative real, so the
    logarithm's argument is a positive real. -/
theorem plogp_coe (e : ℝ) (he : 0 < e) (hε : ε = (e : EReal)) (L n : ℝ) (hn : 0 ≤ n) :
    plogp (n : EReal) (L : EReal) = ((fR (max L 1) e n : ℝ) : EReal) := by
  have hT : (0 : ℝ) < max L 1 := lt_of_lt_of_le one_pos (le_max_right _ _)
  have hmax : max (L : EReal) 1 = ((max L 1 : ℝ) : EReal) := by
    rw [coe_max, EReal.coe_one]
  have hp : 0 < n * (1 / max L 1) + e := by positivity
  unfold plogp fR
  rw [hmax, Ideal.div_coe hT.ne', hε, ← EReal.coe_mul, ← EReal.coe_add, Ideal.log_coe,
    if_neg (not_le.mpr hp), ← EReal.coe_mul]

/-- The kernel's term at a real `x` and a real multiplicity `n`. -/
theorem kterm_coe (x n : ℝ) :
    Ideal.div (0 - (x : EReal)) (max (n : EReal) 1) = (((0 - x) * (1 / max n 1) : ℝ) : EReal) := by
  have hT : (0 : ℝ) < max n 1 := lt_of_lt_of_le one_pos (le_max_right _ _)
  have hmax : max (n : EReal) 1 = ((max n 1 : ℝ) : EReal) := by
    rw [coe_max, EReal.coe_one]
  rw [hmax, Ideal.div_coe hT.ne', ← EReal.coe_zero, ← EReal.coe_sub, ← EReal.coe_mul]

/-! ### Grouping the 64 tokens by value -/

/-- A sum over the tokens of a function of the token's value is the sum over the 3717 values of the multiplicity
    times the function: token `i` falls in the one bin `v = (t i).toNat`. -/
theorem sum_by_value (t : Patch) (h : ∀ i, (t i).toNat < 3717) (G : BitVec 32 → ℝ) :
    ∑ i : Fin 64, G (t i)
      = ∑ v : Fin 3717, (mult t (BitVec.ofNat 32 v.val) : ℝ) * G (BitVec.ofNat 32 v.val) := by
  have key : ∀ (i : Fin 64) (v : Fin 3717),
      ((⟨(t i).toNat, h i⟩ : Fin 3717) = v) ↔ t i = BitVec.ofNat 32 v.val := by
    intro i v
    constructor
    · intro e
      rw [← e]
      simp
    · intro e
      apply Fin.ext
      have hv := v.isLt
      simp only [e, BitVec.toNat_ofNat]
      omega
  have h1 : ∑ i : Fin 64, G (t i)
      = ∑ i : Fin 64, (fun v : Fin 3717 => G (BitVec.ofNat 32 v.val)) (⟨(t i).toNat, h i⟩ : Fin 3717) := by
    apply Finset.sum_congr rfl
    intro i _
    simp
  rw [h1, ← Finset.sum_fiberwise' Finset.univ (fun i : Fin 64 => (⟨(t i).toNat, h i⟩ : Fin 3717))
    (fun v : Fin 3717 => G (BitVec.ofNat 32 v.val))]
  apply Finset.sum_congr rfl
  intro v _
  rw [Finset.sum_const, nsmul_eq_mul, mult]
  congr 3
  ext i
  simp only [Finset.mem_filter, Finset.mem_univ, true_and]
  exact key i v

theorem kernelEntropy_eq_refEntropy (t : Patch) (h : ∀ i, (t i).toNat < 3717) : kernelEntropy t = refEntropy t := by
  obtain ⟨e, he, hε⟩ := eps_real
  -- the number of live tokens, as a real
  obtain ⟨L, hL⟩ : ∃ L : ℝ, L = ∑ i : Fin 64, (if isAir (t i) then (0 : ℝ) else 1) := ⟨_, rfl⟩
  have hLS : liveSum t = (L : EReal) := by
    rw [hL, coe_sum]
    unfold liveSum
    apply Finset.sum_congr rfl
    intro i _
    split_ifs <;> simp
  -- the histogram's bins, as reals
  obtain ⟨binR, hbinR⟩ : ∃ binR : Fin 3717 → ℝ, ∀ v, binR v =
      if isAir (BitVec.ofNat 32 v.val) then 0 else (mult t (BitVec.ofNat 32 v.val) : ℝ) := ⟨_, fun _ => rfl⟩
  have hbin : ∀ v, bin t v = ((binR v : ℝ) : EReal) := by
    intro v
    unfold bin
    rw [hbinR v]
    split_ifs <;> simp
  have hbin0 : ∀ v, 0 ≤ binR v := by
    intro v
    rw [hbinR v]
    split_ifs
    · exact le_rfl
    · exact Nat.cast_nonneg _
  -- the histogram's total is the number of live tokens
  have hTot : ∑ v : Fin 3717, binR v = L := by
    rw [hL, sum_by_value t h (fun w => if isAir w then (0 : ℝ) else 1)]
    apply Finset.sum_congr rfl
    intro v _
    rw [hbinR v]
    split_ifs <;> simp
  have hTotE : ∑ v' : Fin 3717, bin t v' = (L : EReal) := by
    rw [← hTot, coe_sum]
    exact Finset.sum_congr rfl (fun v _ => hbin v)
  -- the reference's value is a real
  have hRef : refEntropy t = ((-(∑ v : Fin 3717, fR (max L 1) e (binR v)) : ℝ) : EReal) := by
    unfold refEntropy
    rw [hTotE, EReal.coe_neg, coe_sum]
    refine congrArg (fun x : EReal => -x) ?_
    apply Finset.sum_congr rfl
    intro v _
    rw [hbin v, plogp_coe e he hε L (binR v) (hbin0 v)]
  -- the kernel's value is a real
  obtain ⟨g, hg⟩ : ∃ g : BitVec 32 → ℝ, ∀ w, g w =
      if isAir w then 0 else (0 - fR (max L 1) e (mult t w)) * (1 / max (mult t w : ℝ) 1) := ⟨_, fun _ => rfl⟩
  have hKer : kernelEntropy t = ((∑ i : Fin 64, g (t i) : ℝ) : EReal) := by
    unfold kernelEntropy
    rw [coe_sum]
    apply Finset.sum_congr rfl
    intro i _
    rw [hg (t i)]
    by_cases ha : isAir (t i)
    · rw [if_pos ha, if_pos ha, EReal.coe_zero]
    · rw [if_neg ha, if_neg ha, hLS]
      unfold liveMult
      rw [if_neg ha, plogp_coe e he hε L _ (Nat.cast_nonneg _), kterm_coe]
  -- group the kernel's sum by value and compare bin by bin
  rw [hKer, hRef, sum_by_value t h g, ← Finset.sum_neg_distrib]
  refine congrArg (fun x : ℝ => (x : EReal)) ?_
  apply Finset.sum_congr rfl
  intro v _
  rw [hg, hbinR v]
  by_cases ha : isAir (BitVec.ofNat 32 v.val)
  · rw [if_pos ha, if_pos ha, fR_zero, mul_zero, neg_zero]
  · rw [if_neg ha, if_neg ha]
    rcases Nat.eq_zero_or_pos (mult t (BitVec.ofNat 32 v.val)) with h0 | h0
    · rw [h0, Nat.cast_zero, fR_zero, zero_mul, neg_zero]
    · have h1 : (1 : ℝ) ≤ (mult t (BitVec.ofNat 32 v.val) : ℝ) := by exact_mod_cast h0
      have h2 : (mult t (BitVec.ofNat 32 v.val) : ℝ) ≠ 0 := by positivity
      rw [max_eq_left h1]
      field_simp
      ring

end Cert.Tokens

end
-- ==== Proof.Domain.lean ====
/-
  The added precondition, decoded: where `all (structure ≥ 0) ∧ all (structure < 3717)` is true, every word of the
  volume read unsigned is below 3717.
-/
import proofs.«413189_j54666343744090_3_alg».proof.Pre_any_inputs
import proofs.«413189_j54666343744090_3_alg».proof.Proof.Gen.Pre_any_inputs
import Idealize.ShloMosaic.Lib.ReduceAll
import Idealize.ShloMosaic.Lib.Affine
import Idealize.ShloMosaic.Lib.StableHlo.Predicate
import Idealize.ShloMosaic.Lib.ValueIdx

noncomputable section

namespace Cert.Domain

open Idealize.ShloMosaic Cert.Pre_any_inputs Cert.Pre_any_inputs.Gen

/-- A word that is nonnegative and below 3717 read signed is below 3717 read unsigned. -/
theorem toNat_lt_of_signed (w : BitVec 32) (h0 : IntOp.cmpi .sge w 0#32 = 1#1) (h1 : IntOp.cmpi .slt w 3717#32 = 1#1) :
    w.toNat < 3717 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (3717#32 : BitVec 32).toInt = 3717 := by decide
  rw [e0] at h0; rw [e1] at h1
  rw [BitVec.toInt_eq_toNat_cond] at h0 h1
  have := w.isLt
  split at h0 <;> omega

instance : Subsingleton S_.Idx := ⟨fun a b => funext fun d => d.elim0⟩

theorem tokens_in_range {F : FTy → Type} [FloatOps F] (a : IVec S32x32x32x32 32)
    (h : fn (F := F) a = fun _ => 1#1) (i : S32x32x32x32.Idx) : (a i).toNat < 3717 := by
  have h0 := congrFun h ValueIdx.ix0
  dsimp only [fn] at h0
  obtain ⟨hge, hlt⟩ := (IntOp.andi_eq_one).1 h0
  have hge' := Host.reduce_andi_all _ _ _ _ _ hge i
  have hlt' := Host.reduce_andi_all _ _ _ _ _ hlt i
  exact toNat_lt_of_signed (a i) hge' hlt'

end Cert.Domain

end
-- ==== Proof.lean ====
/-
  Per-patch token entropy of a [32, 32, 32, 32] volume of token ids, cut into 16384 patches of 4 × 4 × 4 = 64 tokens:
  the kernel against the reference, over the extended reals, for token ids in the vocabulary range [0, 3717).

  The reference builds each patch's histogram over the 3717 token values (a scatter-add of ones), empties the three
  "air" bins, and sums `-(p log (p + ε))` over the bins, `p` a bin's share of the patch's live tokens. The kernel never
  builds a histogram: it finds each live token's multiplicity `n` by comparing the patch with its 63 cyclic shifts, and
  sums `-(p log (p + ε)) / n` over the live TOKENS, `p = n / tot`. Grouping the tokens by value, a value held by `n`
  tokens contributes `n` copies of a term divided by `n`: the two sums agree (`kernelEntropy_eq_refEntropy`), every
  quantity being a finite real and an empty bin contributing `0 · log ε = 0`. Both programs then take the mean of the
  16384 per-patch values by the same two host operations.

  Outside [0, 3717) the two differ (the histogram drops a value ≥ 3717 and reads a negative one from the end), which
  is why the precondition asks for the range; it is used once, below, through `Domain.tokens_in_range`.

  The modules: Tokens (the mathematics' vocabulary), EntropyMath and ShiftCount (its two theorems), Rounds and
  KernelBody (the kernel's body read at an entry), KernelValue (the kernel's run), PatchLayout (the two cuts of the
  volume read the same voxel), RefTerm, RefRun and RefValue (the reference's term, run and value), Domain (the
  precondition decoded), Total (the mean both share).
-/
import proofs.«413189_j54666343744090_3_alg».proof.Defs
import proofs.«413189_j54666343744090_3_alg».proof.Proof.Gen.Kernel
import proofs.«413189_j54666343744090_3_alg».proof.Proof.Gen.Kernel.Skeleton
import proofs.«413189_j54666343744090_3_alg».proof.Proof.Gen.Kernel.Launch
import proofs.«413189_j54666343744090_3_alg».proof.Proof.Gen.Kernel.Points
import proofs.«413189_j54666343744090_3_alg».proof.Proof.Gen.Kernel.Frame
import proofs.«413189_j54666343744090_3_alg».proof.Proof.Gen.KernelIdeal
import proofs.«413189_j54666343744090_3_alg».proof.Proof.Gen.KernelIdeal.Skeleton
import proofs.«413189_j54666343744090_3_alg».proof.Proof.Gen.KernelIdeal.Launch
import proofs.«413189_j54666343744090_3_alg».proof.Proof.Gen.KernelIdeal.Points
import proofs.«413189_j54666343744090_3_alg».proof.Proof.Gen.KernelIdeal.Frame
import proofs.«413189_j54666343744090_3_alg».proof.Proof.Gen.ReferenceIdeal
import proofs.«413189_j54666343744090_3_alg».proof.Proof.Gen.Pre_any_inputs
import proofs.«413189_j54666343744090_3_alg».proof.Proof.KernelValue
import proofs.«413189_j54666343744090_3_alg».proof.Proof.RefRun
import proofs.«413189_j54666343744090_3_alg».proof.Proof.RefValue
import proofs.«413189_j54666343744090_3_alg».proof.Proof.PatchLayout
import proofs.«413189_j54666343744090_3_alg».proof.Proof.EntropyMath
import proofs.«413189_j54666343744090_3_alg».proof.Proof.Domain
import Idealize.ShloMosaic.Adequacy
import Idealize.ShloMosaic.Init

noncomputable section

namespace Cert.Proof

open Idealize.ShloMosaic Idealize.ShloMosaic.ValueIdx Idealize.SL.Sem Cert.Tokens

/-- Patch by patch the kernel's array of values is the reference's, for a volume of tokens in range: the two patch
    matrices hold the same voxels (transposed), and on one patch the two entropies agree. -/
theorem entropies_eq (a : IVec Cert.KernelIdeal.S32x32x32x32 32) (ha : ∀ i, (a i).toNat < 3717) :
    Cert.KernelIdeal.KValue.entropies a
      = Cert.ReferenceIdeal.RefTerm.entropies (F := Ideal) (Cert.ReferenceIdeal.RefTerm.patches a) := by
  have hk : ∀ (k : Fin 64) (p : Fin 16384), Cert.KernelIdeal.KValue.patches a (ix2 k p) = a (Cert.PatchLayout.voxel p k) :=
    fun k p => Cert.PatchLayout.kernel_patches a _ _ _ k p
  have hr : ∀ (p : Fin 16384) (k : Fin 64), Cert.ReferenceIdeal.RefTerm.patches a (ix2 p k) = a (Cert.PatchLayout.voxel p k) :=
    fun p k => Cert.PatchLayout.ref_patches a _ _ _ p k
  funext j
  obtain ⟨p, rfl⟩ : ∃ p : Fin 16384, j = ix1 p := ⟨j 0, eq_ix1 j⟩
  rw [Cert.ReferenceIdeal.RefValue.entropies_apply _ (fun p k => by rw [hr]; exact ha _) p]
  show kernelEntropy (fun k => Cert.KernelIdeal.KValue.patches a (ix2 k p)) = _
  have e : (fun k => Cert.KernelIdeal.KValue.patches a (ix2 k p)) = fun k => Cert.ReferenceIdeal.RefTerm.patches a (ix2 p k) :=
    funext fun k => (hk k p).trans (hr p k).symm
  rw [e]
  exact kernelEntropy_eq_refEntropy _ (fun k => by rw [hr]; exact ha _)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end at the mean of one array of per-patch values. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c, entropies_eq _ (Cert.Domain.tokens_in_range _ (hpre c))]

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
